-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S8x128x256 : Shape := ⟨3, ![8, 128, 256]⟩
abbrev S256 : Shape := ⟨1, ![256]⟩
abbrev S100000x8 : Shape := ⟨2, ![100000, 8]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S8x128x256 : S_.BroadcastsInDim S8x128x256 (![] : Fin 0 → Fin S8x128x256.rank)
  reducesTo_S8x128x256_S_d0_1_2 : S8x128x256.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S400000x128 .f32) (main_arg1 : FVec F S8x128x256 .f32) (main_arg2 : FVec F S256 .f32) (main_arg3 : FVec F S256 .f32) (main_arg4 : IVec S100000x8 32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S8x128x256 .f32 := Host.absf main_arg1
  let main_cst_0 : FVec F S_ .f32 := constant S_ .f32 0x7F800000#32
  let main_v5 : FVec F S8x128x256 .f32 := broadcastInDim S8x128x256 ![] bcast_S_S8x128x256 main_cst_0
  let main_v6 : IVec S8x128x256 1 := cmpf .olt main_v4 main_v5
  let main_c_1 : IVec S_ 1 := constantI S_ 1 1#1
  let main_v7 : IVec S_ 1 := (fun x v => Host.reduce IntOp.andi x v reducesTo_S8x128x256_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S400000x128 : Shape := ⟨2, ![400000, 128]⟩
abbrev S8x128x256 : Shape := ⟨3, ![8, 128, 256]⟩
abbrev S256 : Shape := ⟨1, ![256]⟩
abbrev S100000x8 : Shape := ⟨2, ![100000, 8]⟩
abbrev S_ : Shape := ⟨0, ![]⟩
abbrev S1x128 : Shape := ⟨2, ![1, 128]⟩
abbrev S400001x128 : Shape := ⟨2, ![400001, 128]⟩
abbrev S100000x8x1 : Shape := ⟨3, ![100000, 8, 1]⟩
abbrev S100000x8x128 : Shape := ⟨3, ![100000, 8, 128]⟩
abbrev S100000x1024 : Shape := ⟨2, ![100000, 1024]⟩
abbrev S1024x256 : Shape := ⟨2, ![1024, 256]⟩
abbrev S100000x256 : Shape := ⟨2, ![100000, 256]⟩
abbrev S2000x1024 : Shape := ⟨2, ![2000, 1024]⟩
abbrev S2000x256 : Shape := ⟨2, ![2000, 256]⟩
abbrev S1x256 : Shape := ⟨2, ![1, 256]⟩

abbrev nBuf : Space → Nat
  | .hbm => 69
  | .vmem => 5
  | .smem => 0
  | _ => 0

abbrev bufTy : (tb : Table) → Fin (tcTables nBuf tb) → BufTy
  | .hbm, ⟨0, _⟩ => ⟨S400000x128, .f32⟩
  | .hbm, ⟨1, _⟩ => ⟨S8x128x256, .f32⟩
  | .hbm, ⟨2, _⟩ => ⟨S256, .f32⟩
  | .hbm, ⟨3, _⟩ => ⟨S256, .f32⟩
  | .hbm, ⟨4, _⟩ => ⟨S100000x8, .i32⟩
  | .hbm, ⟨5, _⟩ => ⟨S_, .f32⟩
  | .hbm, ⟨6, _⟩ => ⟨S1x128, .f32⟩
  | .hbm, ⟨7, _⟩ => ⟨S400001x128, .f32⟩
  | .hbm, ⟨8, _⟩ => ⟨S_, .i32⟩
  | .hbm, ⟨9, _⟩ => ⟨S100000x8, .i32⟩
  | .hbm, ⟨10, _⟩ => ⟨S100000x8, .i1⟩
  | .hbm, ⟨11, _⟩ => ⟨S_, .i32⟩
  | .hbm, ⟨12, _⟩ => ⟨S100000x8, .i32⟩
  | .hbm, ⟨13, _⟩ => ⟨S100000x8, .i32⟩
  | .hbm, ⟨14, _⟩ => ⟨S100000x8, .i32⟩
  | .hbm, ⟨15, _⟩ => ⟨S100000x8x1, .i32⟩
  | .hbm, ⟨16, _⟩ => ⟨S100000x8x128, .f32⟩
  | .hbm, ⟨17, _⟩ => ⟨S100000x1024, .f32⟩
  | .hbm, ⟨18, _⟩ => ⟨S100000x1024, .bf16⟩
  | .hbm, ⟨19, _⟩ => ⟨S1024x256, .f32⟩
  | .hbm, ⟨20, _⟩ => ⟨S1024x256, .bf16⟩
  | .hbm, ⟨21, _⟩ => ⟨S100000x256, .f32⟩
  | .hbm, ⟨22, _⟩ => ⟨S_, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S_, .i32⟩
  | .hbm, ⟨28, _⟩ => ⟨S_, .f32⟩
  | .hbm, ⟨29, _⟩ => ⟨S256, .f32⟩
  | .hbm, ⟨30, _⟩ => ⟨S1x256, .f32⟩
  | .hbm, ⟨31, _⟩ => ⟨S_, .f32⟩
  | .hbm, ⟨32, _⟩ => ⟨S1x256, .f32⟩
  | .hbm, ⟨33, _⟩ => ⟨S1x256, .f32⟩
  | .hbm, ⟨34, _⟩ => ⟨S100000x256, .f32⟩
  | .hbm, ⟨35, _⟩ => ⟨S100000x256, .f32⟩
  | .hbm, ⟨36, _⟩ => ⟨S100000x256, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S1x256, .f32⟩
  | .hbm, ⟨51, _⟩ => ⟨S100000x256, .f32⟩
  | .hbm, ⟨52, _⟩ => ⟨S100000x256, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S1x256, .f32⟩
  | .hbm, ⟨58, _⟩ => ⟨S100000x256, .f32⟩
  | .hbm, ⟨59, _⟩ => ⟨S100000x256, .f32⟩
  | .hbm, ⟨60, _⟩ => ⟨S1x256, .f32⟩
  | .hbm, ⟨61, _⟩ => ⟨S100000x256, .f32⟩
  | .hbm, ⟨62, _⟩ => ⟨S100000x256, .f32⟩
  | .hbm, ⟨63, _⟩ => ⟨S1x256, .f32⟩
  | .hbm, ⟨64, _⟩ => ⟨S100000x256, .f32⟩
  | .hbm, ⟨65, _⟩ => ⟨S100000x256, .f32⟩
  | .hbm, ⟨66, _⟩ => ⟨S_, .f32⟩
  | .hbm, ⟨67, _⟩ => ⟨S100000x256, .f32⟩
  | .hbm, ⟨68, _⟩ => ⟨S100000x256, .f32⟩
  | .local _ .vmem, ⟨0, _⟩ => ⟨S2000x1024, .bf16⟩
  | .local _ .vmem, ⟨1, _⟩ => ⟨S2000x1024, .bf16⟩
  | .local _ .vmem, ⟨2, _⟩ => ⟨S1024x256, .bf16⟩
  | .local _ .vmem, ⟨3, _⟩ => ⟨S2000x256, .f32⟩
  | .local _ .vmem, ⟨4, _⟩ => ⟨S2000x256, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_cst_3 : Ref sig .tc := ⟨.hbm, 44, rfl⟩
abbrev main_call0_v12 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_4 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_call1_cst : Ref sig .tc := ⟨.hbm, 66, rfl⟩
abbrev main_call1_v0 : Ref sig .tc := ⟨.hbm, 67, rfl⟩
abbrev main_v33 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1x128 : S_.BroadcastsInDim S1x128 (![] : Fin 0 → Fin S1x128.rank)
  concatenates_S400000x128_S1x128_S400001x128_d0 : Shape.Concatenates [S400000x128, S1x128] S400001x128 0
  bcast_S_S100000x8 : S_.BroadcastsInDim S100000x8 (![] : Fin 0 → Fin S100000x8.rank)
  bcast_S100000x8_S100000x8x1_0_1 : S100000x8.BroadcastsInDim S100000x8x1 (![0, 1] : Fin 2 → Fin S100000x8x1.rank)
  shapeCasts_S100000x8x128_S100000x1024 : S100000x8x128.ShapeCasts S100000x1024
  bitsLt_bf16_f32 : FTy.bits .bf16 < FTy.bits .f32
  shapeCasts_S8x128x256_S1024x256 : S8x128x256.ShapeCasts S1024x256
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2000x256_S2000x256_0_0 : ∀ a, (![0, 0] : Fin 2 → Nat) a + S2000x256.size a ≤ S2000x256.size a
  h_S2000x256 : 0 < S2000x256.numel
  reducesTo_S100000x256_S256_d0 : S100000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  gather_S400001x128_S100000x8x1_S100000x8x128_2_0_n_n_0_2_1128_wf : GatherDims.WF S400001x128 S100000x8x1 S100000x8x128 [2] [0] [] [0] [] 2 ![1, 128]
  dot_S2000x1024_S1024x256_S2000x256_1_0_0_1_n_n_wf : DotDims.WF S2000x1024 S1024x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .bf16 = 32 ∨ (Rect.block (s := S100000x1024) S2000x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)

variable [Facts₀]

def gather_S400001x128_S100000x8x1_S100000x8x128_2_0_n_n_0_2_1128 : GatherDims S400001x128 S100000x8x1 S100000x8x128 where
  offsetDims := [2]
  collapsedSliceDims := [0]
  operandBatchingDims := []
  startIndicesBatchingDims := []
  startIndexMap := [0]
  indexVectorDim := 2
  sliceSizes := ![1, 128]
  wf := gather_S400001x128_S100000x8x1_S100000x8x128_2_0_n_n_0_2_1128_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf

abbrev win0_0 : Pipeline.Window sig grid0 :=
  Pipeline.Window.ofSpec (Memref.whole main_v10) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S400000x128 : Shape := ⟨2, ![400000, 128]⟩
abbrev S8x128x256 : Shape := ⟨3, ![8, 128, 256]⟩
abbrev S256 : Shape := ⟨1, ![256]⟩
abbrev S100000x8 : Shape := ⟨2, ![100000, 8]⟩
abbrev S_ : Shape := ⟨0, ![]⟩
abbrev S1x128 : Shape := ⟨2, ![1, 128]⟩
abbrev S400001x128 : Shape := ⟨2, ![400001, 128]⟩
abbrev S100000x256 : Shape := ⟨2, ![100000, 256]⟩
abbrev S100000x1 : Shape := ⟨2, ![100000, 1]⟩
abbrev S100000 : Shape := ⟨1, ![100000]⟩
abbrev S100000x128 : Shape := ⟨2, ![100000, 128]⟩
abbrev S1x128x256 : Shape := ⟨3, ![1, 128, 256]⟩
abbrev S128x256 : Shape := ⟨2, ![128, 256]⟩
abbrev S1x256 : Shape := ⟨2, ![1, 256]⟩

abbrev nBuf : Space → Nat
  | .hbm => 177
  | .vmem => 0
  | .smem => 0
  | _ => 0

abbrev hbmTy0_0 (i : Nat) : BufTy := match i % 128 with
  | 0 => ⟨S400000x128, .f32⟩
  | 1 => ⟨S8x128x256, .f32⟩
  | 2 => ⟨S256, .f32⟩
  | 3 => ⟨S256, .f32⟩
  | 4 => ⟨S100000x8, .i32⟩
  | 5 => ⟨S_, .f32⟩
  | 6 => ⟨S1x128, .f32⟩
  | 7 => ⟨S400001x128, .f32⟩
  | 8 => ⟨S_, .f32⟩
  | 9 => ⟨S100000x256, .f32⟩
  | 10 => ⟨S100000x1, .i32⟩
  | 11 => ⟨S100000, .i32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000x128, .f32⟩
  | 21 => ⟨S1x128x256, .f32⟩
  | 22 => ⟨S128x256, .f32⟩
  | 23 => ⟨S100000x256, .f32⟩
  | 24 => ⟨S100000x256, .f32⟩
  | 25 => ⟨S100000x1, .i32⟩
  | 26 => ⟨S100000, .i32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S100000x128, .f32⟩
  | 36 => ⟨S1x128x256, .f32⟩
  | 37 => ⟨S128x256, .f32⟩
  | 38 => ⟨S100000x256, .f32⟩
  | 39 => ⟨S100000x256, .f32⟩
  | 40 => ⟨S100000x1, .i32⟩
  | 41 => ⟨S100000, .i32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S100000x128, .f32⟩
  | 51 => ⟨S1x128x256, .f32⟩
  | 52 => ⟨S128x256, .f32⟩
  | 53 => ⟨S100000x256, .f32⟩
  | 54 => ⟨S100000x256, .f32⟩
  | 55 => ⟨S100000x1, .i32⟩
  | 56 => ⟨S100000, .i32⟩
  | 57 => ⟨S_, .i32⟩
  | 58 => ⟨S100000, .i32⟩
  | 59 => ⟨S100000, .i1⟩
  | 60 => ⟨S_, .i32⟩
  | 61 => ⟨S100000, .i32⟩
  | 62 => ⟨S100000, .i32⟩
  | 63 => ⟨S100000, .i32⟩
  | 64 => ⟨S100000x1, .i32⟩
  | 65 => ⟨S100000x128, .f32⟩
  | 66 => ⟨S1x128x256, .f32⟩
  | 67 => ⟨S128x256, .f32⟩
  | 68 => ⟨S100000x256, .f32⟩
  | 69 => ⟨S100000x256, .f32⟩
  | 70 => ⟨S100000x1, .i32⟩
  | 71 => ⟨S100000, .i32⟩
  | 72 => ⟨S_, .i32⟩
  | 73 => ⟨S100000, .i32⟩
  | 74 => ⟨S100000, .i1⟩
  | 75 => ⟨S_, .i32⟩
  | 76 => ⟨S100000, .i32⟩
  | 77 => ⟨S100000, .i32⟩
  | 78 => ⟨S100000, .i32⟩
  | 79 => ⟨S100000x1, .i32⟩
  | 80 => ⟨S100000x128, .f32⟩
  | 81 => ⟨S1x128x256, .f32⟩
  | 82 => ⟨S128x256, .f32⟩
  | 83 => ⟨S100000x256, .f32⟩
  | 84 => ⟨S100000x256, .f32⟩
  | 85 => ⟨S100000x1, .i32⟩
  | 86 => ⟨S100000, .i32⟩
  | 87 => ⟨S_, .i32⟩
  | 88 => ⟨S100000, .i32⟩
  | 89 => ⟨S100000, .i1⟩
  | 90 => ⟨S_, .i32⟩
  | 91 => ⟨S100000, .i32⟩
  | 92 => ⟨S100000, .i32⟩
  | 93 => ⟨S100000, .i32⟩
  | 94 => ⟨S100000x1, .i32⟩
  | 95 => ⟨S100000x128, .f32⟩
  | 96 => ⟨S1x128x256, .f32⟩
  | 97 => ⟨S128x256, .f32⟩
  | 98 => ⟨S100000x256, .f32⟩
  | 99 => ⟨S100000x256, .f32⟩
  | 100 => ⟨S100000x1, .i32⟩
  | 101 => ⟨S100000, .i32⟩
  | 102 => ⟨S_, .i32⟩
  | 103 => ⟨S100000, .i32⟩
  | 104 => ⟨S100000, .i1⟩
  | 105 => ⟨S_, .i32⟩
  | 106 => ⟨S100000, .i32⟩
  | 107 => ⟨S100000, .i32⟩
  | 108 => ⟨S100000, .i32⟩
  | 109 => ⟨S100000x1, .i32⟩
  | 110 => ⟨S100000x128, .f32⟩
  | 111 => ⟨S1x128x256, .f32⟩
  | 112 => ⟨S128x256, .f32⟩
  | 113 => ⟨S100000x256, .f32⟩
  | 114 => ⟨S100000x256, .f32⟩
  | 115 => ⟨S100000x1, .i32⟩
  | 116 => ⟨S100000, .i32⟩
  | 117 => ⟨S_, .i32⟩
  | 118 => ⟨S100000, .i32⟩
  | 119 => ⟨S100000, .i1⟩
  | 120 => ⟨S_, .i32⟩
  | 121 => ⟨S100000, .i32⟩
  | 122 => ⟨S100000, .i32⟩
  | 123 => ⟨S100000, .i32⟩
  | 124 => ⟨S100000x1, .i32⟩
  | 125 => ⟨S100000x128, .f32⟩
  | 126 => ⟨S1x128x256, .f32⟩
  | 127 => ⟨S128x256, .f32⟩
  | _ => ⟨S400000x128, .f32⟩

abbrev hbmTy0_1 (i : Nat) : BufTy := match i % 128 with
  | 0 => ⟨S100000x256, .f32⟩
  | 1 => ⟨S100000x256, .f32⟩
  | 2 => ⟨S_, .f32⟩
  | 3 => ⟨S256, .f32⟩
  | 4 => ⟨S_, .f32⟩
  | 5 => ⟨S256, .f32⟩
  | 6 => ⟨S256, .f32⟩
  | 7 => ⟨S_, .i32⟩
  | 8 => ⟨S_, .f32⟩
  | 9 => ⟨S256, .f32⟩
  | 10 => ⟨S1x256, .f32⟩
  | 11 => ⟨S_, .f32⟩
  | 12 => ⟨S1x256, .f32⟩
  | 13 => ⟨S1x256, .f32⟩
  | 14 => ⟨S100000x256, .f32⟩
  | 15 => ⟨S100000x256, .f32⟩
  | 16 => ⟨S100000x256, .f32⟩
  | 17 => ⟨S_, .f32⟩
  | 18 => ⟨S_, .f32⟩
  | 19 => ⟨S_, .f32⟩
  | 20 => ⟨S_, .f32⟩
  | 21 => ⟨S256, .f32⟩
  | 22 => ⟨S256, .f32⟩
  | 23 => ⟨S256, .f32⟩
  | 24 => ⟨S_, .f32⟩
  | 25 => ⟨S_, .i1⟩
  | 26 => ⟨S_, .f32⟩
  | 27 => ⟨S_, .f32⟩
  | 28 => ⟨S256, .f32⟩
  | 29 => ⟨S256, .f32⟩
  | 30 => ⟨S1x256, .f32⟩
  | 31 => ⟨S100000x256, .f32⟩
  | 32 => ⟨S100000x256, .f32⟩
  | 33 => ⟨S_, .f32⟩
  | 34 => ⟨S256, .f32⟩
  | 35 => ⟨S256, .f32⟩
  | 36 => ⟨S256, .f32⟩
  | 37 => ⟨S1x256, .f32⟩
  | 38 => ⟨S100000x256, .f32⟩
  | 39 => ⟨S100000x256, .f32⟩
  | 40 => ⟨S1x256, .f32⟩
  | 41 => ⟨S100000x256, .f32⟩
  | 42 => ⟨S100000x256, .f32⟩
  | 43 => ⟨S1x256, .f32⟩
  | 44 => ⟨S100000x256, .f32⟩
  | 45 => ⟨S100000x256, .f32⟩
  | 46 => ⟨S_, .f32⟩
  | 47 => ⟨S100000x256, .f32⟩
  | 48 => ⟨S100000x256, .f32⟩
  | _ => ⟨S400000x128, .f32⟩

abbrev hbmTy (i : Nat) : BufTy := match i / 128 with
  | 0 => hbmTy0_0 i
  | 1 => hbmTy0_1 i
  | _ => ⟨S400000x128, .f32⟩

abbrev bufTy : (tb : Table) → Fin (tcTables nBuf tb) → BufTy
  | .hbm, ⟨i, _⟩ => hbmTy i
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_6 : Ref sig .tc := ⟨.hbm, 57, rfl⟩
abbrev main_v44 : Ref sig .tc := ⟨.hbm, 58, rfl⟩
abbrev main_v45 : Ref sig .tc := ⟨.hbm, 59, rfl⟩
abbrev main_c_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_c_8 : Ref sig .tc := ⟨.hbm, 72, rfl⟩
abbrev main_v57 : Ref sig .tc := ⟨.hbm, 73, rfl⟩
abbrev main_v58 : Ref sig .tc := ⟨.hbm, 74, rfl⟩
abbrev main_c_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_c_10 : Ref sig .tc := ⟨.hbm, 87, rfl⟩
abbrev main_v70 : Ref sig .tc := ⟨.hbm, 88, rfl⟩
abbrev main_v71 : Ref sig .tc := ⟨.hbm, 89, rfl⟩
abbrev main_c_11 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_c_12 : Ref sig .tc := ⟨.hbm, 102, rfl⟩
abbrev main_v83 : Ref sig .tc := ⟨.hbm, 103, rfl⟩
abbrev main_v84 : Ref sig .tc := ⟨.hbm, 104, rfl⟩
abbrev main_c_13 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_c_14 : Ref sig .tc := ⟨.hbm, 117, rfl⟩
abbrev main_v96 : Ref sig .tc := ⟨.hbm, 118, rfl⟩
abbrev main_v97 : Ref sig .tc := ⟨.hbm, 119, rfl⟩
abbrev main_c_15 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_16 : Ref sig .tc := ⟨.hbm, 130, rfl⟩
abbrev main_v107 : Ref sig .tc := ⟨.hbm, 131, rfl⟩
abbrev main_cst_17 : Ref sig .tc := ⟨.hbm, 132, rfl⟩
abbrev main_v108 : Ref sig .tc := ⟨.hbm, 133, rfl⟩
abbrev main_v109 : Ref sig .tc := ⟨.hbm, 134, rfl⟩
abbrev main_c_18 : Ref sig .tc := ⟨.hbm, 135, rfl⟩
abbrev main_call0_cst : Ref sig .tc := ⟨.hbm, 136, rfl⟩
abbrev main_call0_v0 : Ref sig .tc := ⟨.hbm, 137, rfl⟩
abbrev main_call0_v1 : Ref sig .tc := ⟨.hbm, 138, rfl⟩
abbrev main_call0_cst_0 : Ref sig .tc := ⟨.hbm, 139, rfl⟩
abbrev main_call0_v2 : Ref sig .tc := ⟨.hbm, 140, rfl⟩
abbrev main_call0_v3 : Ref sig .tc := ⟨.hbm, 141, rfl⟩
abbrev main_call0_v4 : Ref sig .tc := ⟨.hbm, 142, rfl⟩
abbrev main_call0_v5 : Ref sig .tc := ⟨.hbm, 143, rfl⟩
abbrev main_call0_v6 : Ref sig .tc := ⟨.hbm, 144, rfl⟩
abbrev main_call0_v7 : Ref sig .tc := ⟨.hbm, 145, rfl⟩
abbrev main_call0_cst_1 : Ref sig .tc := ⟨.hbm, 146, rfl⟩
abbrev main_call0_v8 : Ref sig .tc := ⟨.hbm, 147, rfl⟩
abbrev main_call0_cst_2 : Ref sig .tc := ⟨.hbm, 148, rfl⟩
abbrev main_call0_v9 : Ref sig .tc := ⟨.hbm, 149, rfl⟩
abbrev main_call0_v10 : Ref sig .tc := ⟨.hbm, 150, rfl⟩
abbrev main_call0_v11 : Ref sig .tc := ⟨.hbm, 151, rfl⟩
abbrev main_call0_cst_3 : Ref sig .tc := ⟨.hbm, 152, rfl⟩
abbrev main_call0_v12 : Ref sig .tc := ⟨.hbm, 153, rfl⟩
abbrev main_call0_cst_4 : Ref sig .tc := ⟨.hbm, 154, rfl⟩
abbrev main_call0_call0_v0 : Ref sig .tc := ⟨.hbm, 155, rfl⟩
abbrev main_call0_call0_v1 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_19 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_call1_cst : Ref sig .tc := ⟨.hbm, 174, rfl⟩
abbrev main_call1_v0 : Ref sig .tc := ⟨.hbm, 175, rfl⟩
abbrev main_v126 : Ref sig .tc := ⟨.hbm, 176, rfl⟩

abbrev nD : Nat := 1
abbrev τ : Topo := Topo.v7x

variable {F : FTy → Type} [FloatOps F]

class Facts₀ : Prop where
  bcast_S_S1x128 : S_.BroadcastsInDim S1x128 (![] : Fin 0 → Fin S1x128.rank)
  concatenates_S400000x128_S1x128_S400001x128_d0 : Shape.Concatenates [S400000x128, S1x128] S400001x128 0
  bcast_S_S100000x256 : S_.BroadcastsInDim S100000x256 (![] : Fin 0 → Fin S100000x256.rank)
  slices_S100000x8_S100000x1_0_0 : S100000x8.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S8x128x256_S1x128x256_0_0_0 : S8x128x256.Slices ![0, 0, 0] S1x128x256
  shapeCasts_S1x128x256_S128x256 : S1x128x256.ShapeCasts S128x256
  slices_S100000x8_S100000x1_0_1 : S100000x8.Slices ![0, 1] S100000x1
  slices_S8x128x256_S1x128x256_1_0_0 : S8x128x256.Slices ![1, 0, 0] S1x128x256
  slices_S100000x8_S100000x1_0_2 : S100000x8.Slices ![0, 2] S100000x1
  slices_S8x128x256_S1x128x256_2_0_0 : S8x128x256.Slices ![2, 0, 0] S1x128x256
  slices_S100000x8_S100000x1_0_3 : S100000x8.Slices ![0, 3] S100000x1
  slices_S8x128x256_S1x128x256_3_0_0 : S8x128x256.Slices ![3, 0, 0] S1x128x256
  slices_S100000x8_S100000x1_0_4 : S100000x8.Slices ![0, 4] S100000x1
  slices_S8x128x256_S1x128x256_4_0_0 : S8x128x256.Slices ![4, 0, 0] S1x128x256
  slices_S100000x8_S100000x1_0_5 : S100000x8.Slices ![0, 5] S100000x1
  slices_S8x128x256_S1x128x256_5_0_0 : S8x128x256.Slices ![5, 0, 0] S1x128x256
  slices_S100000x8_S100000x1_0_6 : S100000x8.Slices ![0, 6] S100000x1
  slices_S8x128x256_S1x128x256_6_0_0 : S8x128x256.Slices ![6, 0, 0] S1x128x256
  slices_S100000x8_S100000x1_0_7 : S100000x8.Slices ![0, 7] S100000x1
  slices_S8x128x256_S1x128x256_7_0_0 : S8x128x256.Slices ![7, 0, 0] S1x128x256
  reducesTo_S100000x256_S256_d0 : S100000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S100000x256_0_1 : S1x256.BroadcastsInDim S100000x256 (![0, 1] : Fin 2 → Fin S100000x256.rank)
  gather_S400001x128_S100000x1_S100000x128_1_0_n_n_0_1_1128_wf : GatherDims.WF S400001x128 S100000x1 S100000x128 [1] [0] [] [0] [] 1 ![1, 128]
  dot_S100000x128_S128x256_S100000x256_1_0_0_1_n_n_wf : DotDims.WF S100000x128 S128x256 S100000x256 [1] [0] [0] [1] [] []

variable [Facts₀]

def gather_S400001x128_S100000x1_S100000x128_1_0_n_n_0_1_1128 : GatherDims S400001x128 S100000x1 S100000x128 where
  offsetDims := [1]
  collapsedSliceDims := [0]
  operandBatchingDims := []
  startIndicesBatchingDims := []
  startIndexMap := [0]
  indexVectorDim := 1
  sliceSizes := ![1, 128]
  wf := gather_S400001x128_S100000x1_S100000x128_1_0_n_n_0_1_1128_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.LibRowGather3.lean ====
/-
  A row gather by a rank-3 array of start indices, read at an entry (a general lemma: nothing here depends on a
  program).

  For an operand [N, D] and an array of start indices [B, L, 1] with the dimension numbers "offset axis 2, collapsed
  operand axis 0, start index map [0], index vector axis 2, slices 1 x D", the result [B, L, D] at (b, l, k) is the
  operand's row r at column k, where r is the start index at (b, l, 0) read as a signed integer, a negative value
  taken to 0, capped at N - 1.  Any sizes N, D, B, L and any index width.
-/
import Idealize.ShloMosaic.Lib.ValueIdx
import Idealize.ShloMosaic.Lib.Pipeline.Value
import Idealize.ShloMosaic.PureOps.Ideal

noncomputable section

namespace Cert.Lib.RowGather3

open Idealize.ShloMosaic Idealize.ShloMosaic.ValueIdx

variable {α : Type}

/-- The dimension numbers of the row gather: operand `[N, D]`, start indices `[B, L, 1]`, result `[B, L, D]`. A
    record with these fields is this one by `rfl`. -/
abbrev rowDims (N D B L : Nat)
    (wf : GatherDims.WF ⟨2, ![N, D]⟩ ⟨3, ![B, L, 1]⟩ ⟨3, ![B, L, D]⟩ [2] [0] [] [0] [] 2 ![1, D]) :
    GatherDims ⟨2, ![N, D]⟩ ⟨3, ![B, L, 1]⟩ ⟨3, ![B, L, D]⟩ where
  offsetDims := [2]
  collapsedSliceDims := [0]
  operandBatchingDims := []
  startIndicesBatchingDims := []
  startIndexMap := [0]
  indexVectorDim := 2
  sliceSizes := ![1, D]
  wf := wf

/-- The operand's row coordinate read by result index `(b, l, k)`: the start index at `(b, l, 0)`, signed, capped
    into `[0, N - 1]`. -/
theorem rowDims_coord0 {N D B L w : Nat}
    (wf : GatherDims.WF ⟨2, ![N, D]⟩ ⟨3, ![B, L, 1]⟩ ⟨3, ![B, L, D]⟩ [2] [0] [] [0] [] 2 ![1, D])
    (idx : IVec ⟨3, ![B, L, 1]⟩ w) (b : Fin B) (l : Fin L) (k : Fin D) :
    (rowDims N D B L wf).start (ix3 b l k) idx 0 + (rowDims N D B L wf).batchCoord (ix3 b l k) 0
      + (rowDims N D B L wf).offCoord (ix3 b l k) 0 = min (idx (ix3 b l 0)).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowDims N D B L wf).startIndexMap from List.mem_singleton.mpr rfl)]
  have hsi : (rowDims N D B L wf).siIdx (ix3 b l k) ⟨List.idxOf (0 : Fin 2) (rowDims N D B L wf).startIndexMap,
      List.idxOf_lt_length_iff.2 (List.mem_singleton.mpr rfl)⟩ = ix3 b l 0 := by
    funext c; refine Fin.ext ?_
    match c with
    | ⟨0, _⟩ => rfl
    | ⟨1, _⟩ => rfl
    | ⟨2, _⟩ => rfl
  rw [hsi]
  rfl

/-- The operand's column coordinate read by result index `(b, l, k)`: the offset `k`. -/
theorem rowDims_coord1 {N D B L w : Nat}
    (wf : GatherDims.WF ⟨2, ![N, D]⟩ ⟨3, ![B, L, 1]⟩ ⟨3, ![B, L, D]⟩ [2] [0] [] [0] [] 2 ![1, D])
    (idx : IVec ⟨3, ![B, L, 1]⟩ w) (b : Fin B) (l : Fin L) (k : Fin D) :
    (rowDims N D B L wf).start (ix3 b l k) idx 1 + (rowDims N D B L wf).batchCoord (ix3 b l k) 1
      + (rowDims N D B L wf).offCoord (ix3 b l k) 1 = k.val := by
  rw [GatherDims.batchCoord_eq_zero _ _ _ List.not_mem_nil, Nat.add_zero]
  unfold GatherDims.start
  rw [dif_neg (show ¬ (1 : Fin 2) ∈ (rowDims N D B L wf).startIndexMap from
    (by decide : ¬ (1 : Fin 2) ∈ ([0] : List (Fin 2)))), Nat.zero_add]
  unfold GatherDims.offCoord
  rw [dif_pos (show (1 : Fin 2) ∈ (rowDims N D B L wf).sKept from (GatherDims.mem_sKept _ _).mpr
    ⟨(by decide : ¬ (1 : Fin 2) ∈ ([0] : List (Fin 2))), List.not_mem_nil⟩)]
  rfl

/-- THE ROW GATHER READ AT `(b, l, k)`: the operand at row `min (idx[b, l, 0] signed) (N - 1)`, column `k`. -/
theorem gather_rows_apply {N D B L w : Nat} (hN : 0 < N)
    (wf : GatherDims.WF ⟨2, ![N, D]⟩ ⟨3, ![B, L, 1]⟩ ⟨3, ![B, L, D]⟩ [2] [0] [] [0] [] 2 ![1, D])
    (x : (⟨2, ![N, D]⟩ : Shape).Idx → α) (idx : IVec ⟨3, ![B, L, 1]⟩ w)
    (b : Fin B) (l : Fin L) (k : Fin D) :
    Host.gather (rowDims N D B L wf) x idx (ix3 b l k)
      = x (ix2 (⟨min (idx (ix3 b l 0)).toInt.toNat (N - 1), by omega⟩ : Fin N) k) := by
  unfold Host.gather
  congr 1
  funext a
  refine Fin.ext ?_
  match a with
  | ⟨0, _⟩ => exact rowDims_coord0 wf idx b l k
  | ⟨1, _⟩ => exact rowDims_coord1 wf idx b l k

end Cert.Lib.RowGather3

end
-- ==== Proof.LibRowGatherScatter.lean ====
/-
  A row gather followed by a row scatter-add, read at an entry (a general lemma: nothing here depends on a program).

  For an operand of shape [N, W], index arrays of shape [E, 1] and updates of shape [E, W], the row scatter-add
  (update window axis 1, inserted window axis 0, scatter axis 0, index vector axis 1) at entry (n, q) is x[n, q]
  plus the sum, over the edges e whose index dst[e], read signed, is n, of the update (e, q): an edge whose index
  is not a row contributes nothing. The row gather (offset axis 1, collapsed axis 0, start index map [0], index
  vector axis 1, slice sizes [1, W]) at (e, q) is the operand at row min(src[e], N - 1) (the index read signed and
  clamped), column q. Their composition therefore acts on every column by itself (`pass_apply`).
-/
import Idealize.ShloMosaic.Lib.ValueIdx
import Idealize.ShloMosaic.PureOps.Ideal.Laws

noncomputable section

namespace Cert.Lib.RowPass

open Idealize.ShloMosaic Idealize.ShloMosaic.ValueIdx

section Generic

/-- The row scatter's dimension numbers over an operand [N, W], indices [E, 1] and updates [E, W]. -/
abbrev scD (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)

/-- On the row axis the window of update (e, q) starts at dst[e], read signed. -/
theorem sc_start0 (idx : IVec ⟨2, ![E, 1]⟩ w) (e : Fin E) (q : Fin W) :
    (scD N E W wf).start (ix2 e q) idx 0 = (idx (ix2 e 0)).toInt := by
  unfold ScatterDims.start
  rw [dif_pos (show (0 : Fin 2) ∈ (scD N E W wf).scatterDimsToOperandDims from List.mem_singleton.mpr rfl)]
  congr 2
  funext b
  match b with
  | ⟨0, _⟩ => rfl
  | ⟨1, _⟩ => rfl

/-- On the column axis every window starts at 0. -/
theorem sc_start1 (idx : IVec ⟨2, ![E, 1]⟩ w) (e : Fin E) (q : Fin W) :
    (scD N E W wf).start (ix2 e q) idx 1 = 0 := by
  unfold ScatterDims.start
  rw [dif_neg (show (1 : Fin 2) ∉ ([0] : List (Fin 2)) by decide)]

/-- The row axis is inserted: the window coordinate there is 0. -/
theorem sc_window0 (e : Fin E) (q : Fin W) : (scD N E W wf).window (ix2 e q) 0 = 0 := by
  unfold ScatterDims.window
  have h : (0 : Fin 2) ∉ (scD N E W wf).sKept :=
    (by decide : (0 : Fin 2) ∉ (List.finRange 2).filter (fun a => a ∉ ([0] : List (Fin 2))))
  rw [dif_neg h]

/-- On the column axis the window coordinate of update (e, q) is q. -/
theorem sc_window1 (e : Fin E) (q : Fin W) : (scD N E W wf).window (ix2 e q) 1 = q.val := by
  unfold ScatterDims.window
  have h : (1 : Fin 2) ∈ (scD N E W wf).sKept :=
    (by decide : (1 : Fin 2) ∈ (List.finRange 2).filter (fun a => a ∉ ([0] : List (Fin 2))))
  rw [dif_pos h]
  rfl

/-- An axis of a rank-2 shape is 0 or 1. -/
theorem fin2_cases (a : Fin 2) : a = 0 ∨ a = 1 := by
  revert a; decide

/-- Update (e, q) lands at (n, q') exactly when dst[e] = n and q = q' (an update whose dst[e] is not a row lands
    nowhere). -/
theorem sc_result_iff (idx : IVec ⟨2, ![E, 1]⟩ w) (e : Fin E) (q q' : Fin W) (n : Fin N) :
    (scD N E W wf).resultIdx? (ix2 e q) idx = some (ix2 n q')
      ↔ (idx (ix2 e 0)).toInt = (n.val : Int) ∧ q = q' := by
  have hq := q.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      simp only [sc_start0, sc_start1, sc_window0, sc_window1] at e0 e1
      refine ⟨?_, Fin.ext ?_⟩
      · change _ = n.val at e0
        omega
      · change _ = q'.val at e1
        omega
    · rintro ⟨ht, rfl⟩
      congr 1
      funext a
      refine Fin.ext ?_
      rcases fin2_cases a with rfl | rfl
      · show ((scD N E W wf).start (ix2 e q) idx 0 + ((scD N E W wf).window (ix2 e q) 0 : Int)).toNat = n.val
        rw [sc_start0, sc_window0, ht]; omega
      · show ((scD N E W wf).start (ix2 e q) idx 1 + ((scD N E W wf).window (ix2 e q) 1 : Int)).toNat = q.val
        rw [sc_start1, sc_window1]; omega
  · rename_i h
    constructor
    · intro hs; exact absurd hs (by simp)
    · rintro ⟨ht, rfl⟩
      exfalso; apply h
      intro a
      rcases fin2_cases a with rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (q.val : Int) ∧ 0 + (q.val : Int) < (W : Int)
        omega

/-- The scatter-add at entry (n, q): x[n, q] plus the sum over the edges e with dst[e] = n of the update (e, q). -/
theorem sc_apply (x : (⟨2, ![N, W]⟩ : Shape).Idx → EReal) (idx : IVec ⟨2, ![E, 1]⟩ w)
    (upd : (⟨2, ![E, W]⟩ : Shape).Idx → EReal) (n : Fin N) (q : Fin W) :
    Ideal.hostScatterAdd (scD N E W wf) x idx upd (ix2 n q)
      = x (ix2 n q) + ∑ e : Fin E, if (idx (ix2 e 0)).toInt = (n.val : Int) then upd (ix2 e q) else 0 := by
  show x (ix2 n q) + ∑ j ∈ Finset.univ.filter (fun j => (scD N E W wf).resultIdx? j idx = some (ix2 n q)), upd j = _
  congr 1
  rw [Finset.sum_filter, sum_idx2]
  refine Finset.sum_congr rfl fun e _ => ?_
  rw [Finset.sum_congr rfl fun q' _ => if_congr (sc_result_iff wf idx e q' q n) rfl rfl]
  by_cases ht : (idx (ix2 e 0)).toInt = (n.val : Int)
  · simp [ht]
  · simp [ht]

/-- The row gather's dimension numbers over an operand [N, W], start indices [E, 1] and a result [E, W]. -/
abbrev gaD (N E W : Nat) (wfg : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wfg

variable (wfg : GatherDims.WF ⟨2, ![N, W]⟩ ⟨2, ![E, 1]⟩ ⟨2, ![E, W]⟩ [1] [0] [] [0] [] 1 ![1, W])

/-- On the row axis the slice of result (e, q) starts at src[e], read signed and clamped into [0, N - 1]. -/
theorem ga_start0 (idx : IVec ⟨2, ![E, 1]⟩ w) (e : Fin E) (q : Fin W) :
    (gaD N E W wfg).start (ix2 e q) idx 0 = min (idx (ix2 e 0)).toInt.toNat (N - 1) := by
  unfold GatherDims.start
  rw [dif_pos (show (0 : Fin 2) ∈ (gaD N E W wfg).startIndexMap from List.mem_singleton.mpr rfl)]
  have hsi : (gaD N E W wfg).siIdx (ix2 e q) ⟨List.idxOf (0 : Fin 2) (gaD N E W wfg).startIndexMap,
      List.idxOf_lt_length_iff.2 (List.mem_singleton.mpr rfl)⟩ = ix2 e 0 := by
    funext b
    match b with
    | ⟨0, _⟩ => rfl
    | ⟨1, _⟩ => rfl
  rw [hsi]
  rfl

/-- On the column axis every slice starts at 0. -/
theorem ga_start1 (idx : IVec ⟨2, ![E, 1]⟩ w) (e : Fin E) (q : Fin W) :
    (gaD N E W wfg).start (ix2 e q) idx 1 = 0 := by
  unfold GatherDims.start
  rw [dif_neg (show (1 : Fin 2) ∉ ([0] : List (Fin 2)) by decide)]

/-- The row axis is collapsed: the offset coordinate there is 0. -/
theorem ga_off0 (e : Fin E) (q : Fin W) : (gaD N E W wfg).offCoord (ix2 e q) 0 = 0 := by
  unfold GatherDims.offCoord
  have h : (0 : Fin 2) ∉ (gaD N E W wfg).sKept :=
    (by decide : (0 : Fin 2) ∉ (List.finRange 2).filter (fun a => a ∉ ([0] ++ [] : List (Fin 2))))
  rw [dif_neg h]

/-- On the column axis the offset coordinate of result (e, q) is q. -/
theorem ga_off1 (e : Fin E) (q : Fin W) : (gaD N E W wfg).offCoord (ix2 e q) 1 = q.val := by
  unfold GatherDims.offCoord
  have h : (1 : Fin 2) ∈ (gaD N E W wfg).sKept :=
    (by decide : (1 : Fin 2) ∈ (List.finRange 2).filter (fun a => a ∉ ([0] ++ [] : List (Fin 2))))
  rw [dif_pos h]
  rfl

/-- The gather at (e, q): the operand at row min(src[e], N - 1), column q. -/
theorem ga_apply {α : Type} (hN : 0 < N) (H : (⟨2, ![N, W]⟩ : Shape).Idx → α) (idx : IVec ⟨2, ![E, 1]⟩ w)
    (e : Fin E) (q : Fin W) :
    Host.gather (gaD N E W wfg) H idx (ix2 e q)
      = H (ix2 ⟨min (idx (ix2 e 0)).toInt.toNat (N - 1), by omega⟩ q) := by
  unfold Host.gather
  congr 1
  funext a
  refine Fin.ext ?_
  rcases fin2_cases a with rfl | rfl
  · show (gaD N E W wfg).start (ix2 e q) idx 0 + (gaD N E W wfg).batchCoord (ix2 e q) 0
      + (gaD N E W wfg).offCoord (ix2 e q) 0 = min (idx (ix2 e 0)).toInt.toNat (N - 1)
    rw [ga_start0, ga_off0, GatherDims.batchCoord_eq_zero _ _ _ List.not_mem_nil, Nat.add_zero]
  · show (gaD N E W wfg).start (ix2 e q) idx 1 + (gaD N E W wfg).batchCoord (ix2 e q) 1
      + (gaD N E W wfg).offCoord (ix2 e q) 1 = q.val
    rw [ga_start1, ga_off1, GatherDims.batchCoord_eq_zero _ _ _ List.not_mem_nil]
    omega

/-- The gather-then-scatter-add at entry (n, q): x[n, q] plus the sum over the edges e whose target is n of H at the
    clamped source row of e, column q. -/
theorem pass_apply (hN : 0 < N) (H x : (⟨2, ![N, W]⟩ : Shape).Idx → EReal) (idxd idxs : IVec ⟨2, ![E, 1]⟩ w)
    (n : Fin N) (q : Fin W) :
    Ideal.hostScatterAdd (scD N E W wf) x idxd (Host.gather (gaD N E W wfg) H idxs) (ix2 n q)
      = x (ix2 n q) + ∑ e : Fin E, if (idxd (ix2 e 0)).toInt = (n.val : Int)
          then H (ix2 ⟨min (idxs (ix2 e 0)).toInt.toNat (N - 1), by omega⟩ q) else 0 := by
  rw [sc_apply]
  congr 1
  refine Finset.sum_congr rfl fun e _ => ?_
  rw [ga_apply wfg hN]

end Generic

end Cert.Lib.RowPass

end
-- ==== Proof.Spec.lean ====
/-
  The two programs' results as pure functions of the argument arrays (nothing here depends on a printed program).

  Both programs compute a sparse convolution followed by a batch normalisation and a rectifier.  With fp the feature
  table feats with one zero row appended (400001 rows of 128), and row(w) the row a gather reads for an index word w
  (a negative w first moved up by 400001, then read signed and capped into [0, 400000]), the convolution is

      out[r, q] = sum over k < 8 and c < 128 of  fp[row(idx[r, k]), c] * W[k, c, q].

  The kernel's program lays the gathered rows out as a matrix [100000, 1024] (column 128 k + c), the weights as
  [1024, 256] (row 128 k + c), and multiplies them block of rows by block of rows; the reference adds the eight
  products [100000, 128] x [128, 256] one offset k after the other onto a zero matrix.  After that both apply the
  same normalisation, written once here as `tail`.
-/
import Idealize.ShloMosaic.PureOps
import Idealize.ShloMosaic.PureOps.Ideal
import Idealize.ShloMosaic.Lib.ValueIdx
import proofs.«104532_j25967372272144_1_alg».proof.Proof.LibRowGather3
import proofs.«104532_j25967372272144_1_alg».proof.Proof.LibRowGatherScatter

noncomputable section

namespace Cert.Spec

open Idealize.ShloMosaic Idealize.ShloMosaic.ValueIdx

/-! ## Shapes -/

abbrev S0 : Shape := ⟨0, ![]⟩
abbrev SFeat : Shape := ⟨2, ![400000, 128]⟩
abbrev SZRow : Shape := ⟨2, ![1, 128]⟩
abbrev SPad : Shape := ⟨2, ![400001, 128]⟩
abbrev SW : Shape := ⟨3, ![8, 128, 256]⟩
abbrev SIdx : Shape := ⟨2, ![100000, 8]⟩
abbrev SIdx3 : Shape := ⟨3, ![100000, 8, 1]⟩
abbrev SG3 : Shape := ⟨3, ![100000, 8, 128]⟩
abbrev SG : Shape := ⟨2, ![100000, 1024]⟩
abbrev SWf : Shape := ⟨2, ![1024, 256]⟩
abbrev SOut : Shape := ⟨2, ![100000, 256]⟩
abbrev SCh : Shape := ⟨1, ![256]⟩
abbrev SCh1 : Shape := ⟨2, ![1, 256]⟩
abbrev SCol : Shape := ⟨2, ![100000, 1]⟩
abbrev SVec : Shape := ⟨1, ![100000]⟩
abbrev SGk : Shape := ⟨2, ![100000, 128]⟩
abbrev SWk3 : Shape := ⟨3, ![1, 128, 256]⟩
abbrev SWk : Shape := ⟨2, ![128, 256]⟩

/-! ## The shape facts the operations take -/

theorem bc_S0_ZRow : S0.BroadcastsInDim SZRow (![] : Fin 0 → Fin SZRow.rank) := by decide
theorem cat_pad : Shape.Concatenates [SFeat, SZRow] SPad 0 := by decide
theorem bc_S0_Idx : S0.BroadcastsInDim SIdx (![] : Fin 0 → Fin SIdx.rank) := by decide
theorem bc_Idx_Idx3 : SIdx.BroadcastsInDim SIdx3 (![0, 1] : Fin 2 → Fin SIdx3.rank) := by decide
theorem sc_G3_G : SG3.ShapeCasts SG := by decide
theorem sc_W_Wf : SW.ShapeCasts SWf := by decide
theorem bits_bf16_f32 : FTy.bits .bf16 < FTy.bits .f32 := by decide
theorem wf_gather3 : GatherDims.WF SPad SIdx3 SG3 [2] [0] [] [0] [] 2 ![1, 128] := by decide
theorem red_Out_Ch : SOut.ReducesTo [0] SCh := by decide
theorem pos_S0 : 0 < S0.numel := by decide
theorem bc_S0_Ch : S0.BroadcastsInDim SCh (![] : Fin 0 → Fin SCh.rank) := by decide
theorem bc_Ch_Ch1 : SCh.BroadcastsInDim SCh1 (![1] : Fin 1 → Fin SCh1.rank) := by decide
theorem bc_S0_Ch1 : S0.BroadcastsInDim SCh1 (![] : Fin 0 → Fin SCh1.rank) := by decide
theorem bc_Ch1_Out : SCh1.BroadcastsInDim SOut (![0, 1] : Fin 2 → Fin SOut.rank) := by decide
theorem bc_S0_Out : S0.BroadcastsInDim SOut (![] : Fin 0 → Fin SOut.rank) := by decide
theorem sc_Col_Vec : SCol.ShapeCasts SVec := by decide
theorem bc_S0_Vec : S0.BroadcastsInDim SVec (![] : Fin 0 → Fin SVec.rank) := by decide
theorem bc_Vec_Col : SVec.BroadcastsInDim SCol (![0] : Fin 1 → Fin SCol.rank) := by decide
theorem sc_Wk3_Wk : SWk3.ShapeCasts SWk := by decide
theorem wf_gather2 : GatherDims.WF SPad SCol SGk [1] [0] [] [0] [] 1 ![1, 128] := by decide

variable {F : FTy → Type} [FloatOps F]

/-! ## The pieces the two programs share -/

/-- The feature table with one zero row appended: 400001 rows. -/
def padded (feats : FVec F SFeat .f32) : FVec F SPad .f32 :=
  concatenate SPad 0 [⟨SFeat, feats⟩, ⟨SZRow, broadcastInDim SZRow ![] bc_S0_ZRow (constant S0 .f32 0x00000000#32)⟩] cat_pad

/-- The mean of each of the 256 columns of a [100000, 256] matrix: the column sum over 100000. -/
def colMean (out : FVec F SOut .f32) : FVec F SCh .f32 :=
  Host.divf (Host.reduceAdd out (constant S0 .f32 0x00000000#32) red_Out_Ch pos_S0)
    (broadcastInDim SCh ![] bc_S0_Ch (constant S0 .f32 0x47C35000#32))

/-- The deviations from the column means, the means taken as a one-row matrix spread down the rows. -/
def centred (out : FVec F SOut .f32) : FVec F SOut .f32 :=
  subf out (broadcastInDim SOut ![0, 1] bc_Ch1_Out
    (Host.divf (broadcastInDim SCh1 ![1] bc_Ch_Ch1 (Host.reduceAdd out (constant S0 .f32 0x00000000#32) red_Out_Ch pos_S0))
      (broadcastInDim SCh1 ![] bc_S0_Ch1 (constant S0 .f32 0x47C35000#32))))

/-- The divisor of the variance: 100000 less the correction 0 converted to a float. -/
def varDen : FVec F S0 .f32 :=
  subf (constant S0 .f32 0x47C35000#32) (sitofp .f32 (constantI S0 32 0#32))

/-- The variance of each column: the column sum of the squared deviations over the divisor where the divisor is
    positive, the not-a-number pattern elsewhere. -/
def colVar (out : FVec F SOut .f32) : FVec F SCh .f32 :=
  select (broadcastInDim SCh ![] bc_S0_Ch (cmpf .ogt (varDen (F := F)) (constant S0 .f32 0x00000000#32)))
    (Host.divf (Host.reduceAdd (mulf (centred out) (centred out)) (constant S0 .f32 0x00000000#32) red_Out_Ch pos_S0)
      (broadcastInDim SCh ![] bc_S0_Ch (varDen (F := F))))
    (broadcastInDim SCh ![] bc_S0_Ch (id (constant S0 .f32 0x7FC00000#32)))

/-- A vector of 256 channel values spread down the 100000 rows. -/
def spread (v : FVec F SCh .f32) : FVec F SOut .f32 :=
  broadcastInDim SOut ![0, 1] bc_Ch1_Out (broadcastInDim SCh1 ![1] bc_Ch_Ch1 v)

/-- THE NORMALISATION both programs end with: max(((out - mean) * rsqrt(var + eps)) * gamma + beta, 0). -/
def tail (out : FVec F SOut .f32) (gamma beta : FVec F SCh .f32) : FVec F SOut .f32 :=
  maximumf
    (addf (mulf (mulf (subf out (spread (colMean out)))
        (spread (Host.rsqrt (addf (colVar out) (broadcastInDim SCh ![] bc_S0_Ch (constant S0 .f32 0x38D1B717#32))))))
      (spread gamma)) (spread beta))
    (broadcastInDim SOut ![] bc_S0_Out (constant S0 .f32 0x00000000#32))

/-! ## The kernel's program before and in its region -/

/-- The index words with the negative ones moved up by the number of rows, as a [100000, 8] array. -/
def wrapAll (idx : IVec SIdx 32) : IVec SIdx 32 :=
  select (cmpi .slt idx (broadcastInDim SIdx ![] bc_S0_Idx (constantI S0 32 0#32)))
    (addi idx (broadcastInDim SIdx ![] bc_S0_Idx (constantI S0 32 400001#32))) idx

/-- The gathered rows as a matrix [100000, 1024], narrowed to bf16 (the identity at the ideal values). -/
def gatheredFlat (feats : FVec F SFeat .f32) (idx : IVec SIdx 32) : FVec F SG .bf16 :=
  truncf .bf16 (shapeCast SG (Host.gather (Cert.Lib.RowGather3.rowDims 400001 128 100000 8 wf_gather3) (padded feats)
    (broadcastInDim SIdx3 ![0, 1] bc_Idx_Idx3 (wrapAll idx))) sc_G3_G) bits_bf16_f32

/-- The weights as a matrix [1024, 256], narrowed to bf16. -/
def weightsFlat (W : FVec F SW .f32) : FVec F SWf .bf16 :=
  truncf .bf16 (shapeCast SWf W sc_W_Wf) bits_bf16_f32

/-! ## The reference's eight partial products -/

/-- Column o of the index array as a vector of 100000 words, the negative ones moved up by the number of rows. -/
def wrapCol (o : Nat) (ho : SIdx.Slices ![0, o] SCol) (idx : IVec SIdx 32) : IVec SVec 32 :=
  select (cmpi .slt (shapeCast SVec (extractStridedSlice SCol ![0, o] idx ho) sc_Col_Vec)
      (broadcastInDim SVec ![] bc_S0_Vec (constantI S0 32 0#32)))
    (addi (shapeCast SVec (extractStridedSlice SCol ![0, o] idx ho) sc_Col_Vec)
      (broadcastInDim SVec ![] bc_S0_Vec (constantI S0 32 400001#32)))
    (shapeCast SVec (extractStridedSlice SCol ![0, o] idx ho) sc_Col_Vec)

/-- The product of offset o: the rows gathered by column o of the indices, times slab o of the weights. -/
def offsetProduct (o : Nat) (ho : SIdx.Slices ![0, o] SCol) (hw : SW.Slices ![o, 0, 0] SWk3)
    (feats : FVec F SFeat .f32) (W : FVec F SW .f32) (idx : IVec SIdx 32) : FVec F SOut .f32 :=
  Host.dotGeneral (DotDims.plain 100000 128 256) none
    (Host.gather (Cert.Lib.RowPass.gaD 400001 100000 128 wf_gather2) (padded feats)
      (broadcastInDim SCol ![0] bc_Vec_Col (wrapCol o ho idx)))
    (shapeCast SWk (extractStridedSlice SWk3 ![o, 0, 0] W hw) sc_Wk3_Wk)

/-- The reference's convolution: the eight products added one after the other onto a zero matrix. -/
def accumulated (feats : FVec F SFeat .f32) (W : FVec F SW .f32) (idx : IVec SIdx 32) : FVec F SOut .f32 :=
  addf (addf (addf (addf (addf (addf (addf (addf
    (broadcastInDim SOut ![] bc_S0_Out (constant S0 .f32 0x00000000#32))
    (offsetProduct 0 (by decide) (by decide) feats W idx)) (offsetProduct 1 (by decide) (by decide) feats W idx))
    (offsetProduct 2 (by decide) (by decide) feats W idx)) (offsetProduct 3 (by decide) (by decide) feats W idx))
    (offsetProduct 4 (by decide) (by decide) feats W idx)) (offsetProduct 5 (by decide) (by decide) feats W idx))
    (offsetProduct 6 (by decide) (by decide) feats W idx)) (offsetProduct 7 (by decide) (by decide) feats W idx)

/-! ## The matrix product, entry by entry, at the ideal values -/

/-- The product of a [100000, 1024] matrix and a [1024, 256] matrix over the extended reals. -/
def product (A : FVec Ideal SG .bf16) (B : FVec Ideal SWf .bf16) : FVec Ideal SOut .f32 :=
  fun i => ∑ j : Fin 1024, (A (ix2 (i 0) j) : EReal) * (B (ix2 j (i 1)) : EReal)

theorem product_apply (A : FVec Ideal SG .bf16) (B : FVec Ideal SWf .bf16) (p : Fin 100000) (q : Fin 256) :
    product A B (ix2 p q) = ∑ j : Fin 1024, (A (ix2 p j) : EReal) * (B (ix2 j q) : EReal) := rfl

end Cert.Spec

end
-- ==== Proof.KHost.lean ====
/-
  The host lines of the kernel's program around its region, read as values.

  Before the region: the index words below zero are moved up by the number of rows of the padded table, the padded
  table's rows are gathered for all eight offsets at once and laid out as one matrix [100000, 1024]; the weights are laid
  out as [1024, 256].  After the region: the column means, the column variances (with the guard on the divisor), the
  reciprocal square root, the scale, the shift and the rectifier — one function of the product array, gamma and beta.
-/
import proofs.«104532_j25967372272144_1_alg».proof.Proof.Spec
import proofs.«104532_j25967372272144_1_alg».proof.Proof.Gen.KernelIdeal.Frame
import Idealize.ShloMosaic.Lib.StableHlo.Run
import Idealize.ShloMosaic.Lib.Pipeline.Value

set_option maxRecDepth 16384

noncomputable section

namespace Cert.KernelIdeal.KVal

open Idealize.ShloMosaic Idealize.ShloMosaic.TcCoe Idealize.SL.Sem Idealize.ShloMosaic.StableHlo
open Idealize.ShloMosaic.Pipeline (Dat Cfg Window)
open Cert.KernelIdeal Cert.KernelIdeal.Gen

variable {F : FTy → Type} [FloatOps F]
variable (m : (ℓ : Loc nD τ sig) → Buf (Elt F) ℓ)

/-- The left operand of the product as the region finds it: the gathered rows laid out as a matrix. -/
theorem V_main_v10 (c : Dev nD) :
    V m c main_v10 = Cert.Spec.gatheredFlat (m ((c : Thread nD τ).loc main_arg0)) (m ((c : Thread nD τ).loc main_arg4)) := by
  show StableHlo.after hostOps0 (fun b => m (c, b)) (Proc.devRef .tc main_v10) = _
  after_results
  rfl

/-- The right operand as the region finds it: the weights laid out as a matrix. -/
theorem V_main_v12 (c : Dev nD) :
    V m c main_v12 = Cert.Spec.weightsFlat (m ((c : Thread nD τ).loc main_arg1)) := by
  show StableHlo.after hostOps0 (fun b => m (c, b)) (Proc.devRef .tc main_v12) = _
  after_results
  rfl

/-- The lines that follow the region, from ANY contents W of the buffers: the result buffer ends at the
    normalisation of what W holds at the product array, with the scale and the shift W holds. Every intermediate
    buffer (the column means, the variance with its guard, the reciprocal root, the spread rows) is written before
    it is read, so nothing else of W enters. -/
theorem tail_after (W : Valuation τ sig (Elt F)) :
    StableHlo.after (hostOps1 ++ hostOps1_1 ++ hostOps1_2 ++ hostOps1_3) W (Proc.devRef .tc main_v33)
      = Cert.Spec.tail (W (Proc.devRef .tc main_v13)) (W (Proc.devRef .tc main_arg2)) (W (Proc.devRef .tc main_arg3)) := by
  simp only [hostOps1, hostOps1_1, hostOps1_2, hostOps1_3, List.cons_append, List.nil_append]
  after_results_simp
  rfl

/-- The four stretches of lines after the region, concatenated. -/
theorem tail_flatten :
    List.flatten [(hostOps1 : List (HloOp τ sig (Elt F))), hostOps1_1, hostOps1_2, hostOps1_3]
      = hostOps1 ++ hostOps1_1 ++ hostOps1_2 ++ hostOps1_3 := by
  simp only [List.flatten_cons, List.flatten_nil, List.append_nil, List.append_assoc]

/-- The result buffer after the lines that follow the region: the normalisation of the product array. -/
theorem tail_result (c : Dev nD) :
    Pipeline.afterTail₀ cfgs (dats m) 0 (V0 m) [hostOps1, hostOps1_1, hostOps1_2, hostOps1_3] c main_v33
      = Cert.Spec.tail ((dats m 0 c).arrAt 2 cfg0.N) (m ((c : Thread nD τ).loc main_arg2)) (m ((c : Thread nD τ).loc main_arg3)) := by
  unfold Pipeline.afterTail₀
  rw [tail_flatten, tail_after]
  -- the product array is the pipeline's third array; the scale and the shift are no array of the pipeline and no
  -- line before the region writes them
  have h13 := Pipeline.withArrays_arr spec0 launch0.win.arr_inj c (V0 m c) (fun w => (dats m 0 c).arrAt w cfg0.N) 2
  have h2 := (Pipeline.withArrays_of_ne spec0 c (V0 m c) (fun w => (dats m 0 c).arrAt w cfg0.N) main_arg2
    (by decide : ∀ w, Pipeline.arrRef spec0 w ≠ main_arg2)).trans (V_main_arg2 m c)
  have h3 := (Pipeline.withArrays_of_ne spec0 c (V0 m c) (fun w => (dats m 0 c).arrAt w cfg0.N) main_arg3
    (by decide : ∀ w, Pipeline.arrRef spec0 w ≠ main_arg3)).trans (V_main_arg3 m c)
  exact congr (congr (congrArg Cert.Spec.tail h13) h2) h3

end Cert.KernelIdeal.KVal

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.KBlocks.lean ====
/-
  The product array after the kernel's region, at the ideal values.

  The region has fifty grid points.  At point t the body loads rows 2000 t … 2000 t + 1999 of the left operand
  [100000, 1024] and the whole right operand [1024, 256], multiplies them into a zero accumulator, and stores the
  2000 x 256 result, which is written back as rows 2000 t … 2000 t + 1999 of the product array [100000, 256].  Entry
  (p, q) of such a block is the sum over the 1024 contracted positions, so it is entry (2000 t + p, q) of the whole
  product; the fifty blocks tile the array (row r lies in block r / 2000), hence the array ends holding the whole product.
-/
import proofs.«104532_j25967372272144_1_alg».proof.Proof.Spec
import proofs.«104532_j25967372272144_1_alg».proof.Proof.LibMatmul
import proofs.«104532_j25967372272144_1_alg».proof.Proof.Gen.KernelIdeal.Frame
import Idealize.ShloMosaic.Lib.StableHlo.Run
import Idealize.ShloMosaic.Lib.Pipeline.Value

set_option maxRecDepth 16384

noncomputable section

namespace Cert.KernelIdeal.KVal

open Idealize.ShloMosaic Idealize.ShloMosaic.TcCoe Idealize.SL.Sem Idealize.ShloMosaic.StableHlo
open Idealize.ShloMosaic.Pipeline (Dat Cfg Window)
open Cert.KernelIdeal Cert.KernelIdeal.Gen
open Idealize.ShloMosaic.ValueIdx

/-! ## One block of the product

At grid point t the body multiplies rows 2000 t … 2000 t + 1999 of the left operand by the whole right operand and
stores the 2000 x 256 result; the fifty blocks tile the product array. -/

theorem offsets_zero : (![0, 0] : Fin 2 → Nat) = fun _ => 0 := funext fun a => by fin_cases a <;> rfl

/-- The body's stored value at an entry: the sum over the 1024 contracted positions. -/
theorem stored_apply (x0 : Vec Ideal S2000x1024 .bf16) (x1 : Vec Ideal S1024x256 .bf16) (p : Fin 2000) (q : Fin 256) :
    k0_pay1 x0 x1 (ix2 p q) = ∑ j : Fin 1024, (x0 (ix2 p j) : EReal) * (x1 (ix2 j q) : EReal) := by
  unfold k0_pay1
  simp only [shapeCast_self]
  exact Cert.Lib.Matmul.matmul_zero_apply (A := 2000) (K := 1024) (C := 256) none x0 x1 p q

/-- The printed index maps over the grid: the left operand's and the result's blocks move down with the point, the right
    operand's block stays. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of 2000 rows of the left operand times the whole right operand is the same block of rows of the whole
    product: entry (p, q) of the block's product is entry (2000 b + p, q) of the whole one. -/
theorem block_product (A : FVec Ideal Cert.Spec.SG .bf16) (B : FVec Ideal Cert.Spec.SWf .bf16)
    (x0 : Vec Ideal S2000x1024 .bf16) (x1 : Vec Ideal S1024x256 .bf16) (b : ℕ)
    (h0 : ∀ (p : Fin 2000) (k : Fin 1024) (r : Fin 100000), r.val = b * 2000 + p.val → x0 (ix2 p k) = A (ix2 r k))
    (h1 : ∀ (k : Fin 1024) (q : Fin 256), x1 (ix2 k q) = B (ix2 k q))
    (j : S2000x256.Idx) (i : Cert.Spec.SOut.Idx) (hi0 : (i 0).val = b * 2000 + (j 0).val) (hi1 : (i 1).val = (j 1).val) :
    k0_pay1 x0 x1 j = Cert.Spec.product A B i := by
  obtain ⟨p, q, rfl⟩ : ∃ (p : Fin 2000) (q : Fin 256), j = ix2 p q := ⟨j 0, j 1, eq_ix2 j⟩
  obtain ⟨r, q', rfl⟩ : ∃ (r : Fin 100000) (q' : Fin 256), i = ix2 r q' := ⟨i 0, i 1, eq_ix2 i⟩
  have hr : r.val = b * 2000 + p.val := hi0
  obtain rfl : q' = q := Fin.ext hi1
  rw [stored_apply, Cert.Spec.product_apply]
  refine Finset.sum_congr rfl fun k _ => ?_
  rw [h0 p k r hr, h1 k _]

variable (m : (ℓ : Loc nD τ sig) → Buf (Elt Ideal) ℓ)

/-- What grid point t writes back is block t of the whole product. -/
theorem flushed_eq (c : Dev nD) (t : Fin cfg0.N) :
    (dats m 0 c).flushed 2 t
      = ((cfg0.win 2).blk t).view.read (Elt Ideal) (Cert.Spec.product (V m c main_v10) (V m c main_v12)) := by
  show (cfg0.win 2).cut (grid0.coords t) ((dats m 0 c).after 2 t) = _
  rw [after0_2]
  unfold out0_2
  rw [View.canon_unit_zero offsets_zero]
  simp only [View.ld_unit_zero (S := S2000x1024) offsets_zero, View.ld_unit_zero (S := S1024x256) offsets_zero]
  obtain ⟨e00, e01, e10, e11, e20, e21⟩ := block_indices t
  funext j
  show k0_pay1 (iblk m c 0 t) (iblk m c 1 t) j
    = Cert.Spec.product (V m c main_v10) (V m c main_v12) (((cfg0.win 2).blk t).view.emb j)
  refine block_product (V m c main_v10) (V m c main_v12) (iblk m c 0 t) (iblk m c 1 t) t.val ?_ ?_ j _ ?_ ?_
  · intro p k r hr
    show V m c main_v10 (((cfg0.win 0).blk t).view.emb (ix2 p k)) = V m c main_v10 (ix2 r k)
    congr 1
    funext a; apply Fin.ext
    match a with
    | ⟨0, _⟩ => show win0_0.index t (0 : Fin 2) * 2000 + 1 * p.val = r.val; omega
    | ⟨1, _⟩ => show win0_0.index t (1 : Fin 2) * 1024 + 1 * k.val = k.val; omega
  · intro k q
    show V m c main_v12 (((cfg0.win 1).blk t).view.emb (ix2 k q)) = V m c main_v12 (ix2 k q)
    congr 1
    funext a; apply Fin.ext
    match a with
    | ⟨0, _⟩ => show win0_1.index t (0 : Fin 2) * 1024 + 1 * k.val = k.val; omega
    | ⟨1, _⟩ => show win0_1.index t (1 : Fin 2) * 256 + 1 * q.val = q.val; omega
  · show win0_2.index t (0 : Fin 2) * 2000 + 1 * (j 0).val = t.val * 2000 + (j 0).val; omega
  · show win0_2.index t (1 : Fin 2) * 256 + 1 * (j 1).val = (j 1).val; omega

/-- An index of the product array is in point t's block iff its row is among the block's 2000 rows. -/
theorem mem_block (t : Fin cfg0.N) (i : S100000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v13).slice (win0_2.rect t)).set ↔ _
  rw [View.set_slice_whole, Rect.mem_set_unit]
  exact Iff.rfl

/-- Every entry of the product array lies in the block of the point row / 2000. -/
theorem covered (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 50 := N_0
  let t : Fin cfg0.N := ⟨(i 0).val / 2000, by rw [hN]; omega⟩
  obtain ⟨-, -, -, -, e20, e21⟩ := block_indices t
  have ht : t.val = (i 0).val / 2000 := rfl
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The product array after the region: the whole matrix product of the two operand arrays. -/
theorem final (c : Dev nD) :
    (dats m 0 c).arrAt 2 cfg0.N = Cert.Spec.product (V m c main_v10) (V m c main_v12) :=
  (dats m 0 c).arrAt_eq_of_cover 2 (Cert.Spec.product (V m c main_v10) (V m c main_v12)) (fun t _ => flushed_eq m c t) covered

end Cert.KernelIdeal.KVal

end
-- ==== Proof.KRun.lean ====
/-
  The kernel's program at the ideal values, run: its result buffer ends at the normalisation of the one matrix
  product of the gathered rows and the flattened weights, and its arguments end unchanged.
-/
import proofs.«104532_j25967372272144_1_alg».proof.Proof.KHost
import proofs.«104532_j25967372272144_1_alg».proof.Proof.KBlocks

noncomputable section

namespace Cert.KernelIdeal.KVal

open Idealize.ShloMosaic Idealize.ShloMosaic.TcCoe Idealize.SL.Sem
open Cert.KernelIdeal Cert.KernelIdeal.Gen

/-- The frame run re-posted with the result named: the product array by its blocks, the operands by the host lines
    before the region, the result by the lines after it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33)
        = Cert.Spec.tail (Cert.Spec.product
              (Cert.Spec.gatheredFlat (m ((c.tc : Thread nD τ).loc main_arg0)) (m ((c.tc : Thread nD τ).loc main_arg4)))
              (Cert.Spec.weightsFlat (m ((c.tc : Thread nD τ).loc main_arg1))))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v33 (Pipeline.mem_restRefs_of main_v33 (by decide) (by decide))).trans
        ((tail_result m c).trans (by rw [final m c, V_main_v10 m c, V_main_v12 m c])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.KVal

end
-- ==== Proof.RRun.lean ====
/-
  The reference's run, read back.

  The reference is a straight line of 173 host operations: the feature table padded with a zero row; for each of the
  eight offsets the index column wrapped, the rows gathered, the weight slab, their product and its addition onto the
  sum so far; then the column means, the variance (a called function with a guarded divisor), the scaling and the
  rectifier.  Read one stretch at a time from arbitrary contents, each stretch leaves the arguments and the padded table
  as they were and adds one offset's product onto the accumulator, so the result buffer ends at the normalisation of the
  eight accumulated products of the arguments.
-/
import proofs.«104532_j25967372272144_1_alg».proof.Proof.Spec
import proofs.«104532_j25967372272144_1_alg».proof.Proof.Gen.ReferenceIdeal
import Idealize.ShloMosaic.Lib.StableHlo.Run
import Idealize.ShloMosaic.Lib.Pipeline.Regions

noncomputable section

namespace Cert.ReferenceIdeal.RVal

open Idealize.ShloMosaic Idealize.ShloMosaic.TcCoe Idealize.SL.Sem Idealize.ShloMosaic.StableHlo
open Cert.ReferenceIdeal Cert.ReferenceIdeal.Gen

variable {F : FTy → Type} [FloatOps F]

/-! ## The operations

The reference's operations in order, the two called functions' bodies at their calls over the calls' own buffers,
cut into the stretches the proof reads one at a time. -/

/-- The feature table padded with a zero row, and the zero matrix the products are added onto. -/
abbrev opsPre : List (HloOp τ sig (Elt F)) :=
  [ StableHlo.nullary main_cst (constant S_ .f32 0x00000000#32),
    StableHlo.unary main_cst main_v0 (broadcastInDim S1x128 ![] bcast_S_S1x128 : (⟨S_, .f32⟩ : BufTy).Contents (Elt F) → (⟨S1x128, .f32⟩ : BufTy).Contents (Elt F)),
    StableHlo.binary main_arg0 main_v0 main_v1 ((fun a b => concatenate S400001x128 0 [⟨S400000x128, a⟩, ⟨S1x128, b⟩] concatenates_S400000x128_S1x128_S400001x128_d0) : (⟨S400000x128, .f32⟩ : BufTy).Contents (Elt F) → (⟨S1x128, .f32⟩ : BufTy).Contents (Elt F) → (⟨S400001x128, .f32⟩ : BufTy).Contents (Elt F)),
    StableHlo.nullary main_cst_0 (constant S_ .f32 0x00000000#32),
    StableHlo.unary main_cst_0 main_v2 (broadcastInDim S100000x256 ![] bcast_S_S100000x256 : (⟨S_, .f32⟩ : BufTy).Contents (Elt F) → (⟨S100000x256, .f32⟩ : BufTy).Contents (Elt F)) ]

/-- Offset 0: column 0 of the indices wrapped, the rows gathered, slab 0 of the weights, their product added on. -/
abbrev opsOff0 : List (HloOp τ sig (Elt F)) :=
  [ StableHlo.unary main_arg4 main_v3 ((extractStridedSlice S100000x1 ![0, 0] · slices_S100000x8_S100000x1_0_0) : (⟨S100000x8, .i32⟩ : BufTy).Contents (Elt F) → (⟨S100000x1, .i32⟩ : BufTy).Contents (Elt F)),
    StableHlo.reshape main_v3 main_v4 rfl shapeCasts_S100000x1_S100000,
    StableHlo.nullary main_c (constantI S_ 32 0#32),
    StableHlo.unary main_c main_v5 (broadcastInDim S100000 ![] bcast_S_S100000 : (⟨S_, .i32⟩ : BufTy).Contents (Elt F) → (⟨S100000, .i32⟩ : BufTy).Contents (Elt F)),
    StableHlo.binary main_v4 main_v5 main_v6 (cmpi .slt : (⟨S100000, .i32⟩ : BufTy).Contents (Elt F) → (⟨S100000, .i32⟩ : BufTy).Contents (Elt F) → (⟨S100000, .i1⟩ : BufTy).Contents (Elt F)),
    StableHlo.nullary main_c_1 (constantI S_ 32 400001#32),
    StableHlo.unary main_c_1 main_v7 (broadcastInDim S100000 ![] bcast_S_S100000 : (⟨S_, .i32⟩ : BufTy).Contents (Elt F) → (⟨S100000, .i32⟩ : BufTy).Contents (Elt F)),
    StableHlo.binary main_v4 main_v7 main_v8 (addi : (⟨S100000, .i32⟩ : BufTy).Contents (Elt F) → (⟨S100000, .i32⟩ : BufTy).Contents (Elt F) → (⟨S100000, .i32⟩ : BufTy).Contents (Elt F)),
    StableHlo.ternary main_v6 main_v8 main_v4 main_v9 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v9 main_v10 (broadcastInDim S100000x1 ![0] bcast_S100000_S100000x1_0 : (⟨S100000, .i32⟩ : BufTy).Contents (Elt F) → (⟨S100000x1, .i32⟩ : BufTy).Contents (Elt F)),
    StableHlo.binary main_v1 main_v10 main_v11 ((fun x i => Host.gather gather_S400001x128_S100000x1_S100000x128_1_0_n_n_0_1_1128 x i) : (⟨S400001x128, .f32⟩ : BufTy).Contents (Elt F) → (⟨S100000x1, .i32⟩ : BufTy).Contents (Elt F) → (⟨S100000x128, .f32⟩ : BufTy).Contents (Elt F)),
    StableHlo.unary main_arg1 main_v12 ((extractStridedSlice S1x128x256 ![0, 0, 0] · slices_S8x128x256_S1x128x256_0_0_0) : (⟨S8x128x256, .f32⟩ : BufTy).Contents (Elt F) → (⟨S1x128x256, .f32⟩ : BufTy).Contents (Elt F)),
    StableHlo.reshape main_v12 main_v13 rfl shapeCasts_S1x128x256_S128x256,
    StableHlo.binary main_v11 main_v13 main_v14 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v2 main_v14 main_v15 (addf : (⟨S100000x256, .f32⟩ : BufTy).Contents (Elt F) → (⟨S100000x256, .f32⟩ : BufTy).Contents (Elt F) → (⟨S100000x256, .f32⟩ : BufTy).Contents (Elt F)) ]

/-- Offset 1. -/
abbrev opsOff1 : List (HloOp τ sig (Elt F)) :=
  [ StableHlo.unary main_arg4 main_v16 ((extractStridedSlice S100000x1 ![0, 1] · slices_S100000x8_S100000x1_0_1) : (⟨S100000x8, .i32⟩ : BufTy).Contents (Elt F) → (⟨S100000x1, .i32⟩ : BufTy).Contents (Elt F)),
    StableHlo.reshape main_v16 main_v17 rfl shapeCasts_S100000x1_S100000,
    StableHlo.nullary main_c_2 (constantI S_ 32 0#32),
    StableHlo.unary main_c_2 main_v18 (broadcastInDim S100000 ![] bcast_S_S100000 : (⟨S_, .i32⟩ : BufTy).Contents (Elt F) → (⟨S100000, .i32⟩ : BufTy).Contents (Elt F)),
    StableHlo.binary main_v17 main_v18 main_v19 (cmpi .slt : (⟨S100000, .i32⟩ : BufTy).Contents (Elt F) → (⟨S100000, .i32⟩ : BufTy).Contents (Elt F) → (⟨S100000, .i1⟩ : BufTy).Contents (Elt F)),
    StableHlo.nullary main_c_3 (constantI S_ 32 400001#32),
    StableHlo.unary main_c_3 main_v20 (broadcastInDim S100000 ![] bcast_S_S100000 : (⟨S_, .i32⟩ : BufTy).Contents (Elt F) → (⟨S100000, .i32⟩ : BufTy).Contents (Elt F)),
    StableHlo.binary main_v17 main_v20 main_v21 (addi : (⟨S100000, .i32⟩ : BufTy).Contents (Elt F) → (⟨S100000, .i32⟩ : BufTy).Contents (Elt F) → (⟨S100000, .i32⟩ : BufTy).Contents (Elt F)),
    StableHlo.ternary main_v19 main_v21 main_v17 main_v22 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v22 main_v23 (broadcastInDim S100000x1 ![0] bcast_S100000_S100000x1_0 : (⟨S100000, .i32⟩ : BufTy).Contents (Elt F) → (⟨S100000x1, .i32⟩ : BufTy).Contents (Elt F)),
    StableHlo.binary main_v1 main_v23 main_v24 ((fun x i => Host.gather gather_S400001x128_S100000x1_S100000x128_1_0_n_n_0_1_1128 x i) : (⟨S400001x128, .f32⟩ : BufTy).Contents (Elt F) → (⟨S100000x1, .i32⟩ : BufTy).Contents (Elt F) → (⟨S100000x128, .f32⟩ : BufTy).Contents (Elt F)),
    StableHlo.unary main_arg1 main_v25 ((extractStridedSlice S1x128x256 ![1, 0, 0] · slices_S8x128x256_S1x128x256_1_0_0) : (⟨S8x128x256, .f32⟩ : BufTy).Contents (Elt F) → (⟨S1x128x256, .f32⟩ : BufTy).Contents (Elt F)),
    StableHlo.reshape main_v25 main_v26 rfl shapeCasts_S1x128x256_S128x256,
    StableHlo.binary main_v24 main_v26 main_v27 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v15 main_v27 main_v28 (addf : (⟨S100000x256, .f32⟩ : BufTy).Contents (Elt F) → (⟨S100000x256, .f32⟩ : BufTy).Contents (Elt F) → (⟨S100000x256, .f32⟩ : BufTy).Contents (Elt F)) ]

/-- Offset 2. -/
abbrev opsOff2 : List (HloOp τ sig (Elt F)) :=
  [ StableHlo.unary main_arg4 main_v29 ((extractStridedSlice S100000x1 ![0, 2] · slices_S100000x8_S100000x1_0_2) : (⟨S100000x8, .i32⟩ : BufTy).Contents (Elt F) → (⟨S100000x1, .i32⟩ : BufTy).Contents (Elt F)),
    StableHlo.reshape main_v29 main_v30 rfl shapeCasts_S100000x1_S100000,
    StableHlo.nullary main_c_4 (constantI S_ 32 0#32),
    StableHlo.unary main_c_4 main_v31 (broadcastInDim S100000 ![] bcast_S_S100000 : (⟨S_, .i32⟩ : BufTy).Contents (Elt F) → (⟨S100000, .i32⟩ : BufTy).Contents (Elt F)),
    StableHlo.binary main_v30 main_v31 main_v32 (cmpi .slt : (⟨S100000, .i32⟩ : BufTy).Contents (Elt F) → (⟨S100000, .i32⟩ : BufTy).Contents (Elt F) → (⟨S100000, .i1⟩ : BufTy).Contents (Elt F)),
    StableHlo.nullary main_c_5 (constantI S_ 32 400001#32),
    StableHlo.unary main_c_5 main_v33 (broadcastInDim S100000 ![] bcast_S_S100000 : (⟨S_, .i32⟩ : BufTy).Contents (Elt F) → (⟨S100000, .i32⟩ : BufTy).Contents (Elt F)),
    StableHlo.binary main_v30 main_v33 main_v34 (addi : (⟨S100000, .i32⟩ : BufTy).Contents (Elt F) → (⟨S100000, .i32⟩ : BufTy).Contents (Elt F) → (⟨S100000, .i32⟩ : BufTy).Contents (Elt F)),
    StableHlo.ternary main_v32 main_v34 main_v30 main_v35 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v35 main_v36 (broadcastInDim S100000x1 ![0] bcast_S100000_S100000x1_0 : (⟨S100000, .i32⟩ : BufTy).Contents (Elt F) → (⟨S100000x1, .i32⟩ : BufTy).Contents (Elt F)),
    StableHlo.binary main_v1 main_v36 main_v37 ((fun x i => Host.gather gather_S400001x128_S100000x1_S100000x128_1_0_n_n_0_1_1128 x i) : (⟨S400001x128, .f32⟩ : BufTy).Contents (Elt F) → (⟨S100000x1, .i32⟩ : BufTy).Contents (Elt F) → (⟨S100000x128, .f32⟩ : BufTy).Contents (Elt F)),
    StableHlo.unary main_arg1 main_v38 ((extractStridedSlice S1x128x256 ![2, 0, 0] · slices_S8x128x256_S1x128x256_2_0_0) : (⟨S8x128x256, .f32⟩ : BufTy).Contents (Elt F) → (⟨S1x128x256, .f32⟩ : BufTy).Contents (Elt F)),
    StableHlo.reshape main_v38 main_v39 rfl shapeCasts_S1x128x256_S128x256,
    StableHlo.binary main_v37 main_v39 main_v40 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v28 main_v40 main_v41 (addf : (⟨S100000x256, .f32⟩ : BufTy).Contents (Elt F) → (⟨S100000x256, .f32⟩ : BufTy).Contents (Elt F) → (⟨S100000x256, .f32⟩ : BufTy).Contents (Elt F)) ]

/-- Offset 3, up to the index column as a one-column matrix. -/
abbrev opsOff3a : List (HloOp τ sig (Elt F)) :=
  [ StableHlo.unary main_arg4 main_v42 ((extractStridedSlice S100000x1 ![0, 3] · slices_S100000x8_S100000x1_0_3) : (⟨S100000x8, .i32⟩ : BufTy).Contents (Elt F) → (⟨S100000x1, .i32⟩ : BufTy).Contents (Elt F)),
    StableHlo.reshape main_v42 main_v43 rfl shapeCasts_S100000x1_S100000,
    StableHlo.nullary main_c_6 (constantI S_ 32 0#32),
    StableHlo.unary main_c_6 main_v44 (broadcastInDim S100000 ![] bcast_S_S100000 : (⟨S_, .i32⟩ : BufTy).Contents (Elt F) → (⟨S100000, .i32⟩ : BufTy).Contents (Elt F)),
    StableHlo.binary main_v43 main_v44 main_v45 (cmpi .slt : (⟨S100000, .i32⟩ : BufTy).Contents (Elt F) → (⟨S100000, .i32⟩ : BufTy).Contents (Elt F) → (⟨S100000, .i1⟩ : BufTy).Contents (Elt F)),
    StableHlo.nullary main_c_7 (constantI S_ 32 400001#32),
    StableHlo.unary main_c_7 main_v46 (broadcastInDim S100000 ![] bcast_S_S100000 : (⟨S_, .i32⟩ : BufTy).Contents (Elt F) → (⟨S100000, .i32⟩ : BufTy).Contents (Elt F)),
    StableHlo.binary main_v43 main_v46 main_v47 (addi : (⟨S100000, .i32⟩ : BufTy).Contents (Elt F) → (⟨S100000, .i32⟩ : BufTy).Contents (Elt F) → (⟨S100000, .i32⟩ : BufTy).Contents (Elt F)),
    StableHlo.ternary main_v45 main_v47 main_v43 main_v48 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v48 main_v49 (broadcastInDim S100000x1 ![0] bcast_S100000_S100000x1_0 : (⟨S100000, .i32⟩ : BufTy).Contents (Elt F) → (⟨S100000x1, .i32⟩ : BufTy).Contents (Elt F)) ]

/-- Offset 3, from the gather on. -/
abbrev opsOff3b : List (HloOp τ sig (Elt F)) :=
  [ StableHlo.binary main_v1 main_v49 main_v50 ((fun x i => Host.gather gather_S400001x128_S100000x1_S100000x128_1_0_n_n_0_1_1128 x i) : (⟨S400001x128, .f32⟩ : BufTy).Contents (Elt F) → (⟨S100000x1, .i32⟩ : BufTy).Contents (Elt F) → (⟨S100000x128, .f32⟩ : BufTy).Contents (Elt F)),
    StableHlo.unary main_arg1 main_v51 ((extractStridedSlice S1x128x256 ![3, 0, 0] · slices_S8x128x256_S1x128x256_3_0_0) : (⟨S8x128x256, .f32⟩ : BufTy).Contents (Elt F) → (⟨S1x128x256, .f32⟩ : BufTy).Contents (Elt F)),
    StableHlo.reshape main_v51 main_v52 rfl shapeCasts_S1x128x256_S128x256,
    StableHlo.binary main_v50 main_v52 main_v53 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v41 main_v53 main_v54 (addf : (⟨S100000x256, .f32⟩ : BufTy).Contents (Elt F) → (⟨S100000x256, .f32⟩ : BufTy).Contents (Elt F) → (⟨S100000x256, .f32⟩ : BufTy).Contents (Elt F)) ]

/-- Offset 4. -/
abbrev opsOff4 : List (HloOp τ sig (Elt F)) :=
  [ StableHlo.unary main_arg4 main_v55 ((extractStridedSlice S100000x1 ![0, 4] · slices_S100000x8_S100000x1_0_4) : (⟨S100000x8, .i32⟩ : BufTy).Contents (Elt F) → (⟨S100000x1, .i32⟩ : BufTy).Contents (Elt F)),
    StableHlo.reshape main_v55 main_v56 rfl shapeCasts_S100000x1_S100000,
    StableHlo.nullary main_c_8 (constantI S_ 32 0#32),
    StableHlo.unary main_c_8 main_v57 (broadcastInDim S100000 ![] bcast_S_S100000 : (⟨S_, .i32⟩ : BufTy).Contents (Elt F) → (⟨S100000, .i32⟩ : BufTy).Contents (Elt F)),
    StableHlo.binary main_v56 main_v57 main_v58 (cmpi .slt : (⟨S100000, .i32⟩ : BufTy).Contents (Elt F) → (⟨S100000, .i32⟩ : BufTy).Contents (Elt F) → (⟨S100000, .i1⟩ : BufTy).Contents (Elt F)),
    StableHlo.nullary main_c_9 (constantI S_ 32 400001#32),
    StableHlo.unary main_c_9 main_v59 (broadcastInDim S100000 ![] bcast_S_S100000 : (⟨S_, .i32⟩ : BufTy).Contents (Elt F) → (⟨S100000, .i32⟩ : BufTy).Contents (Elt F)),
    StableHlo.binary main_v56 main_v59 main_v60 (addi : (⟨S100000, .i32⟩ : BufTy).Contents (Elt F) → (⟨S100000, .i32⟩ : BufTy).Contents (Elt F) → (⟨S100000, .i32⟩ : BufTy).Contents (Elt F)),
    StableHlo.ternary main_v58 main_v60 main_v56 main_v61 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v61 main_v62 (broadcastInDim S100000x1 ![0] bcast_S100000_S100000x1_0 : (⟨S100000, .i32⟩ : BufTy).Contents (Elt F) → (⟨S100000x1, .i32⟩ : BufTy).Contents (Elt F)),
    StableHlo.binary main_v1 main_v62 main_v63 ((fun x i => Host.gather gather_S400001x128_S100000x1_S100000x128_1_0_n_n_0_1_1128 x i) : (⟨S400001x128, .f32⟩ : BufTy).Contents (Elt F) → (⟨S100000x1, .i32⟩ : BufTy).Contents (Elt F) → (⟨S100000x128, .f32⟩ : BufTy).Contents (Elt F)),
    StableHlo.unary main_arg1 main_v64 ((extractStridedSlice S1x128x256 ![4, 0, 0] · slices_S8x128x256_S1x128x256_4_0_0) : (⟨S8x128x256, .f32⟩ : BufTy).Contents (Elt F) → (⟨S1x128x256, .f32⟩ : BufTy).Contents (Elt F)),
    StableHlo.reshape main_v64 main_v65 rfl shapeCasts_S1x128x256_S128x256,
    StableHlo.binary main_v63 main_v65 main_v66 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v54 main_v66 main_v67 (addf : (⟨S100000x256, .f32⟩ : BufTy).Contents (Elt F) → (⟨S100000x256, .f32⟩ : BufTy).Contents (Elt F) → (⟨S100000x256, .f32⟩ : BufTy).Contents (Elt F)) ]

/-- Offset 5. -/
abbrev opsOff5 : List (HloOp τ sig (Elt F)) :=
  [ StableHlo.unary main_arg4 main_v68 ((extractStridedSlice S100000x1 ![0, 5] · slices_S100000x8_S100000x1_0_5) : (⟨S100000x8, .i32⟩ : BufTy).Contents (Elt F) → (⟨S100000x1, .i32⟩ : BufTy).Contents (Elt F)),
    StableHlo.reshape main_v68 main_v69 rfl shapeCasts_S100000x1_S100000,
    StableHlo.nullary main_c_10 (constantI S_ 32 0#32),
    StableHlo.unary main_c_10 main_v70 (broadcastInDim S100000 ![] bcast_S_S100000 : (⟨S_, .i32⟩ : BufTy).Contents (Elt F) → (⟨S100000, .i32⟩ : BufTy).Contents (Elt F)),
    StableHlo.binary main_v69 main_v70 main_v71 (cmpi .slt : (⟨S100000, .i32⟩ : BufTy).Contents (Elt F) → (⟨S100000, .i32⟩ : BufTy).Contents (Elt F) → (⟨S100000, .i1⟩ : BufTy).Contents (Elt F)),
    StableHlo.nullary main_c_11 (constantI S_ 32 400001#32),
    StableHlo.unary main_c_11 main_v72 (broadcastInDim S100000 ![] bcast_S_S100000 : (⟨S_, .i32⟩ : BufTy).Contents (Elt F) → (⟨S100000, .i32⟩ : BufTy).Contents (Elt F)),
    StableHlo.binary main_v69 main_v72 main_v73 (addi : (⟨S100000, .i32⟩ : BufTy).Contents (Elt F) → (⟨S100000, .i32⟩ : BufTy).Contents (Elt F) → (⟨S100000, .i32⟩ : BufTy).Contents (Elt F)),
    StableHlo.ternary main_v71 main_v73 main_v69 main_v74 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v74 main_v75 (broadcastInDim S100000x1 ![0] bcast_S100000_S100000x1_0 : (⟨S100000, .i32⟩ : BufTy).Contents (Elt F) → (⟨S100000x1, .i32⟩ : BufTy).Contents (Elt F)),
    StableHlo.binary main_v1 main_v75 main_v76 ((fun x i => Host.gather gather_S400001x128_S100000x1_S100000x128_1_0_n_n_0_1_1128 x i) : (⟨S400001x128, .f32⟩ : BufTy).Contents (Elt F) → (⟨S100000x1, .i32⟩ : BufTy).Contents (Elt F) → (⟨S100000x128, .f32⟩ : BufTy).Contents (Elt F)),
    StableHlo.unary main_arg1 main_v77 ((extractStridedSlice S1x128x256 ![5, 0, 0] · slices_S8x128x256_S1x128x256_5_0_0) : (⟨S8x128x256, .f32⟩ : BufTy).Contents (Elt F) → (⟨S1x128x256, .f32⟩ : BufTy).Contents (Elt F)),
    StableHlo.reshape main_v77 main_v78 rfl shapeCasts_S1x128x256_S128x256,
    StableHlo.binary main_v76 main_v78 main_v79 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v67 main_v79 main_v80 (addf : (⟨S100000x256, .f32⟩ : BufTy).Contents (Elt F) → (⟨S100000x256, .f32⟩ : BufTy).Contents (Elt F) → (⟨S100000x256, .f32⟩ : BufTy).Contents (Elt F)) ]

/-- Offset 6. -/
abbrev opsOff6 : List (HloOp τ sig (Elt F)) :=
  [ StableHlo.unary main_arg4 main_v81 ((extractStridedSlice S100000x1 ![0, 6] · slices_S100000x8_S100000x1_0_6) : (⟨S100000x8, .i32⟩ : BufTy).Contents (Elt F) → (⟨S100000x1, .i32⟩ : BufTy).Contents (Elt F)),
    StableHlo.reshape main_v81 main_v82 rfl shapeCasts_S100000x1_S100000,
    StableHlo.nullary main_c_12 (constantI S_ 32 0#32),
    StableHlo.unary main_c_12 main_v83 (broadcastInDim S100000 ![] bcast_S_S100000 : (⟨S_, .i32⟩ : BufTy).Contents (Elt F) → (⟨S100000, .i32⟩ : BufTy).Contents (Elt F)),
    StableHlo.binary main_v82 main_v83 main_v84 (cmpi .slt : (⟨S100000, .i32⟩ : BufTy).Contents (Elt F) → (⟨S100000, .i32⟩ : BufTy).Contents (Elt F) → (⟨S100000, .i1⟩ : BufTy).Contents (Elt F)),
    StableHlo.nullary main_c_13 (constantI S_ 32 400001#32),
    StableHlo.unary main_c_13 main_v85 (broadcastInDim S100000 ![] bcast_S_S100000 : (⟨S_, .i32⟩ : BufTy).Contents (Elt F) → (⟨S100000, .i32⟩ : BufTy).Contents (Elt F)),
    StableHlo.binary main_v82 main_v85 main_v86 (addi : (⟨S100000, .i32⟩ : BufTy).Contents (Elt F) → (⟨S100000, .i32⟩ : BufTy).Contents (Elt F) → (⟨S100000, .i32⟩ : BufTy).Contents (Elt F)),
    StableHlo.ternary main_v84 main_v86 main_v82 main_v87 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v87 main_v88 (broadcastInDim S100000x1 ![0] bcast_S100000_S100000x1_0 : (⟨S100000, .i32⟩ : BufTy).Contents (Elt F) → (⟨S100000x1, .i32⟩ : BufTy).Contents (Elt F)),
    StableHlo.binary main_v1 main_v88 main_v89 ((fun x i => Host.gather gather_S400001x128_S100000x1_S100000x128_1_0_n_n_0_1_1128 x i) : (⟨S400001x128, .f32⟩ : BufTy).Contents (Elt F) → (⟨S100000x1, .i32⟩ : BufTy).Contents (Elt F) → (⟨S100000x128, .f32⟩ : BufTy).Contents (Elt F)),
    StableHlo.unary main_arg1 main_v90 ((extractStridedSlice S1x128x256 ![6, 0, 0] · slices_S8x128x256_S1x128x256_6_0_0) : (⟨S8x128x256, .f32⟩ : BufTy).Contents (Elt F) → (⟨S1x128x256, .f32⟩ : BufTy).Contents (Elt F)),
    StableHlo.reshape main_v90 main_v91 rfl shapeCasts_S1x128x256_S128x256,
    StableHlo.binary main_v89 main_v91 main_v92 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v80 main_v92 main_v93 (addf : (⟨S100000x256, .f32⟩ : BufTy).Contents (Elt F) → (⟨S100000x256, .f32⟩ : BufTy).Contents (Elt F) → (⟨S100000x256, .f32⟩ : BufTy).Contents (Elt F)) ]

/-- Offset 7, up to the index column as a one-column matrix. -/
abbrev opsOff7a : List (HloOp τ sig (Elt F)) :=
  [ StableHlo.unary main_arg4 main_v94 ((extractStridedSlice S100000x1 ![0, 7] · slices_S100000x8_S100000x1_0_7) : (⟨S100000x8, .i32⟩ : BufTy).Contents (Elt F) → (⟨S100000x1, .i32⟩ : BufTy).Contents (Elt F)),
    StableHlo.reshape main_v94 main_v95 rfl shapeCasts_S100000x1_S100000,
    StableHlo.nullary main_c_14 (constantI S_ 32 0#32),
    StableHlo.unary main_c_14 main_v96 (broadcastInDim S100000 ![] bcast_S_S100000 : (⟨S_, .i32⟩ : BufTy).Contents (Elt F) → (⟨S100000, .i32⟩ : BufTy).Contents (Elt F)),
    StableHlo.binary main_v95 main_v96 main_v97 (cmpi .slt : (⟨S100000, .i32⟩ : BufTy).Contents (Elt F) → (⟨S100000, .i32⟩ : BufTy).Contents (Elt F) → (⟨S100000, .i1⟩ : BufTy).Contents (Elt F)),
    StableHlo.nullary main_c_15 (constantI S_ 32 400001#32),
    StableHlo.unary main_c_15 main_v98 (broadcastInDim S100000 ![] bcast_S_S100000 : (⟨S_, .i32⟩ : BufTy).Contents (Elt F) → (⟨S100000, .i32⟩ : BufTy).Contents (Elt F)),
    StableHlo.binary main_v95 main_v98 main_v99 (addi : (⟨S100000, .i32⟩ : BufTy).Contents (Elt F) → (⟨S100000, .i32⟩ : BufTy).Contents (Elt F) → (⟨S100000, .i32⟩ : BufTy).Contents (Elt F)),
    StableHlo.ternary main_v97 main_v99 main_v95 main_v100 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v100 main_v101 (broadcastInDim S100000x1 ![0] bcast_S100000_S100000x1_0 : (⟨S100000, .i32⟩ : BufTy).Contents (Elt F) → (⟨S100000x1, .i32⟩ : BufTy).Contents (Elt F)) ]

/-- Offset 7, from the gather on. -/
abbrev opsOff7b : List (HloOp τ sig (Elt F)) :=
  [ StableHlo.binary main_v1 main_v101 main_v102 ((fun x i => Host.gather gather_S400001x128_S100000x1_S100000x128_1_0_n_n_0_1_1128 x i) : (⟨S400001x128, .f32⟩ : BufTy).Contents (Elt F) → (⟨S100000x1, .i32⟩ : BufTy).Contents (Elt F) → (⟨S100000x128, .f32⟩ : BufTy).Contents (Elt F)),
    StableHlo.unary main_arg1 main_v103 ((extractStridedSlice S1x128x256 ![7, 0, 0] · slices_S8x128x256_S1x128x256_7_0_0) : (⟨S8x128x256, .f32⟩ : BufTy).Contents (Elt F) → (⟨S1x128x256, .f32⟩ : BufTy).Contents (Elt F)),
    StableHlo.reshape main_v103 main_v104 rfl shapeCasts_S1x128x256_S128x256,
    StableHlo.binary main_v102 main_v104 main_v105 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v93 main_v105 main_v106 (addf : (⟨S100000x256, .f32⟩ : BufTy).Contents (Elt F) → (⟨S100000x256, .f32⟩ : BufTy).Contents (Elt F) → (⟨S100000x256, .f32⟩ : BufTy).Contents (Elt F)) ]

/-- The column means, and the correction 0 of the variance. -/
abbrev opsMean : List (HloOp τ sig (Elt F)) :=
  [ StableHlo.nullary main_cst_16 (constant S_ .f32 0x00000000#32),
    StableHlo.binary main_v106 main_cst_16 main_v107 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_17 (constant S_ .f32 0x47C35000#32),
    StableHlo.unary main_cst_17 main_v108 (broadcastInDim S256 ![] bcast_S_S256 : (⟨S_, .f32⟩ : BufTy).Contents (Elt F) → (⟨S256, .f32⟩ : BufTy).Contents (Elt F)),
    StableHlo.binary main_v107 main_v108 main_v109 (Host.divf : (⟨S256, .f32⟩ : BufTy).Contents (Elt F) → (⟨S256, .f32⟩ : BufTy).Contents (Elt F) → (⟨S256, .f32⟩ : BufTy).Contents (Elt F)),
    StableHlo.nullary main_c_18 (constantI S_ 32 0#32) ]

/-- The variance's body: its nineteen operations, then the three of the selection it ends with. -/
abbrev opsVar : List (HloOp τ sig (Elt F)) :=
  [ StableHlo.TRef.nullary (.of main_call0_cst : StableHlo.TRef sig ⟨S_, .f32⟩) (constant S_ .f32 0x00000000#32),
    StableHlo.TRef.binary (.of main_v106 : StableHlo.TRef sig ⟨S100000x256, .f32⟩) (.of main_call0_cst : StableHlo.TRef sig ⟨S_, .f32⟩) (.of main_call0_v0 : StableHlo.TRef sig ⟨S256, .f32⟩) (fun x v => Host.reduceAdd x v reducesTo_S100000x256_S256_d0 h_S_),
    StableHlo.TRef.unary (.of main_call0_v0 : StableHlo.TRef sig ⟨S256, .f32⟩) (.of main_call0_v1 : StableHlo.TRef sig ⟨S1x256, .f32⟩) (broadcastInDim S1x256 ![1] bcast_S256_S1x256_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x256, .f32⟩) (broadcastInDim S1x256 ![] bcast_S_S1x256),
    StableHlo.TRef.binary (.of main_call0_v1 : StableHlo.TRef sig ⟨S1x256, .f32⟩) (.of main_call0_v2 : StableHlo.TRef sig ⟨S1x256, .f32⟩) (.of main_call0_v3 : StableHlo.TRef sig ⟨S1x256, .f32⟩) Host.divf,
    StableHlo.TRef.unary (.of main_call0_v3 : StableHlo.TRef sig ⟨S1x256, .f32⟩) (.of main_call0_v4 : StableHlo.TRef sig ⟨S100000x256, .f32⟩) (broadcastInDim S100000x256 ![0, 1] bcast_S1x256_S100000x256_0_1),
    StableHlo.TRef.binary (.of main_v106 : StableHlo.TRef sig ⟨S100000x256, .f32⟩) (.of main_call0_v4 : StableHlo.TRef sig ⟨S100000x256, .f32⟩) (.of main_call0_v5 : StableHlo.TRef sig ⟨S100000x256, .f32⟩) subf,
    StableHlo.TRef.binary (.of main_call0_v5 : StableHlo.TRef sig ⟨S100000x256, .f32⟩) (.of main_call0_v5 : StableHlo.TRef sig ⟨S100000x256, .f32⟩) (.of main_call0_v6 : StableHlo.TRef sig ⟨S100000x256, .f32⟩) mulf,
    StableHlo.TRef.unary (.of main_c_18 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x256, .f32⟩) (.of main_call0_cst_2 : StableHlo.TRef sig ⟨S_, .f32⟩) (.of main_call0_v9 : StableHlo.TRef sig ⟨S256, .f32⟩) (fun x v => Host.reduceAdd x v reducesTo_S100000x256_S256_d0 h_S_),
    StableHlo.TRef.unary (.of main_call0_v8 : StableHlo.TRef sig ⟨S_, .f32⟩) (.of main_call0_v10 : StableHlo.TRef sig ⟨S256, .f32⟩) (broadcastInDim S256 ![] bcast_S_S256),
    StableHlo.TRef.binary (.of main_call0_v9 : StableHlo.TRef sig ⟨S256, .f32⟩) (.of main_call0_v10 : StableHlo.TRef sig ⟨S256, .f32⟩) (.of main_call0_v11 : StableHlo.TRef sig ⟨S256, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S256, .f32⟩) (broadcastInDim S256 ![] bcast_S_S256),
    StableHlo.TRef.ternary (.of main_call0_v12 : StableHlo.TRef sig ⟨S_, .i1⟩) (.of main_call0_v11 : StableHlo.TRef sig ⟨S256, .f32⟩) (.of main_call0_call0_v1 : StableHlo.TRef sig ⟨S256, .f32⟩) (.of main_v110 : StableHlo.TRef sig ⟨S256, .f32⟩) (fun p a b => select (broadcastInDim S256 ![] bcast_S_S256 p) a b) ]

/-- Centring, scaling by the reciprocal root, gamma and beta. -/
abbrev opsNorm : List (HloOp τ sig (Elt F)) :=
  [ StableHlo.unary main_v109 main_v111 (broadcastInDim S1x256 ![1] bcast_S256_S1x256_1 : (⟨S256, .f32⟩ : BufTy).Contents (Elt F) → (⟨S1x256, .f32⟩ : BufTy).Contents (Elt F)),
    StableHlo.unary main_v111 main_v112 (broadcastInDim S100000x256 ![0, 1] bcast_S1x256_S100000x256_0_1 : (⟨S1x256, .f32⟩ : BufTy).Contents (Elt F) → (⟨S100000x256, .f32⟩ : BufTy).Contents (Elt F)),
    StableHlo.binary main_v106 main_v112 main_v113 (subf : (⟨S100000x256, .f32⟩ : BufTy).Contents (Elt F) → (⟨S100000x256, .f32⟩ : BufTy).Contents (Elt F) → (⟨S100000x256, .f32⟩ : BufTy).Contents (Elt F)),
    StableHlo.nullary main_cst_19 (constant S_ .f32 0x38D1B717#32),
    StableHlo.unary main_cst_19 main_v114 (broadcastInDim S256 ![] bcast_S_S256 : (⟨S_, .f32⟩ : BufTy).Contents (Elt F) → (⟨S256, .f32⟩ : BufTy).Contents (Elt F)),
    StableHlo.binary main_v110 main_v114 main_v115 (addf : (⟨S256, .f32⟩ : BufTy).Contents (Elt F) → (⟨S256, .f32⟩ : BufTy).Contents (Elt F) → (⟨S256, .f32⟩ : BufTy).Contents (Elt F)),
    StableHlo.unary main_v115 main_v116 (Host.rsqrt : (⟨S256, .f32⟩ : BufTy).Contents (Elt F) → (⟨S256, .f32⟩ : BufTy).Contents (Elt F)),
    StableHlo.unary main_v116 main_v117 (broadcastInDim S1x256 ![1] bcast_S256_S1x256_1 : (⟨S256, .f32⟩ : BufTy).Contents (Elt F) → (⟨S1x256, .f32⟩ : BufTy).Contents (Elt F)),
    StableHlo.unary main_v117 main_v118 (broadcastInDim S100000x256 ![0, 1] bcast_S1x256_S100000x256_0_1 : (⟨S1x256, .f32⟩ : BufTy).Contents (Elt F) → (⟨S100000x256, .f32⟩ : BufTy).Contents (Elt F)),
    StableHlo.binary main_v113 main_v118 main_v119 (mulf : (⟨S100000x256, .f32⟩ : BufTy).Contents (Elt F) → (⟨S100000x256, .f32⟩ : BufTy).Contents (Elt F) → (⟨S100000x256, .f32⟩ : BufTy).Contents (Elt F)),
    StableHlo.unary main_arg2 main_v120 (broadcastInDim S1x256 ![1] bcast_S256_S1x256_1 : (⟨S256, .f32⟩ : BufTy).Contents (Elt F) → (⟨S1x256, .f32⟩ : BufTy).Contents (Elt F)),
    StableHlo.unary main_v120 main_v121 (broadcastInDim S100000x256 ![0, 1] bcast_S1x256_S100000x256_0_1 : (⟨S1x256, .f32⟩ : BufTy).Contents (Elt F) → (⟨S100000x256, .f32⟩ : BufTy).Contents (Elt F)),
    StableHlo.binary main_v119 main_v121 main_v122 (mulf : (⟨S100000x256, .f32⟩ : BufTy).Contents (Elt F) → (⟨S100000x256, .f32⟩ : BufTy).Contents (Elt F) → (⟨S100000x256, .f32⟩ : BufTy).Contents (Elt F)),
    StableHlo.unary main_arg3 main_v123 (broadcastInDim S1x256 ![1] bcast_S256_S1x256_1 : (⟨S256, .f32⟩ : BufTy).Contents (Elt F) → (⟨S1x256, .f32⟩ : BufTy).Contents (Elt F)),
    StableHlo.unary main_v123 main_v124 (broadcastInDim S100000x256 ![0, 1] bcast_S1x256_S100000x256_0_1 : (⟨S1x256, .f32⟩ : BufTy).Contents (Elt F) → (⟨S100000x256, .f32⟩ : BufTy).Contents (Elt F)),
    StableHlo.binary main_v122 main_v124 main_v125 (addf : (⟨S100000x256, .f32⟩ : BufTy).Contents (Elt F) → (⟨S100000x256, .f32⟩ : BufTy).Contents (Elt F) → (⟨S100000x256, .f32⟩ : BufTy).Contents (Elt F)) ]

/-- The rectifier's body. -/
abbrev opsRelu : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x256, .f32⟩) (broadcastInDim S100000x256 ![] bcast_S_S100000x256),
    StableHlo.TRef.binary (.of main_v125 : StableHlo.TRef sig ⟨S100000x256, .f32⟩) (.of main_call1_v0 : StableHlo.TRef sig ⟨S100000x256, .f32⟩) (.of main_v126 : StableHlo.TRef sig ⟨S100000x256, .f32⟩) maximumf ]

/-- All the operations of the reference, in order. -/
abbrev ops : List (HloOp τ sig (Elt F)) :=
  opsPre ++ opsOff0 ++ opsOff1 ++ opsOff2 ++ opsOff3a ++ opsOff3b ++ opsOff4 ++ opsOff5 ++ opsOff6 ++ opsOff7a ++ opsOff7b ++ opsMean ++ opsVar ++ opsNorm ++ opsRelu

/-- The reference is that straight line: both sides are one chain of operation steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- A property of every operation of two lists holds of every operation of their concatenation. -/
theorem forall_append {p : HloOp τ sig (Elt F) → Prop} {l₁ l₂ : List (HloOp τ sig (Elt F))} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-! ## Every operation touches TensorCore buffers only, and determines its result -/

theorem opsPre_sub : (opsPre : List (HloOp τ sig (Elt F))).Forall fun op => op.bufs ⊆ tcRefs τ sig :=
  ⟨nullary_bufs_sub .., unary_bufs_sub .., binary_bufs_sub .., nullary_bufs_sub .., unary_bufs_sub ..⟩
theorem opsPre_fresh : (opsPre : List (HloOp τ sig (Elt F))).Forall fun op => op.fresh = ∅ := by
  simp only [List.Forall]; repeat' constructor

theorem opsOff0_sub : (opsOff0 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub ..⟩
theorem opsOff0_fresh : (opsOff0 : List (HloOp τ sig (Elt F))).Forall fun op => op.fresh = ∅ := by
  simp only [List.Forall]; repeat' constructor

theorem opsOff1_sub : (opsOff1 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub ..⟩
theorem opsOff1_fresh : (opsOff1 : List (HloOp τ sig (Elt F))).Forall fun op => op.fresh = ∅ := by
  simp only [List.Forall]; repeat' constructor

theorem opsOff2_sub : (opsOff2 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub ..⟩
theorem opsOff2_fresh : (opsOff2 : List (HloOp τ sig (Elt F))).Forall fun op => op.fresh = ∅ := by
  simp only [List.Forall]; repeat' constructor

theorem opsOff3a_sub : (opsOff3a : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub ..⟩
theorem opsOff3a_fresh : (opsOff3a : List (HloOp τ sig (Elt F))).Forall fun op => op.fresh = ∅ := by
  simp only [List.Forall]; repeat' constructor

theorem opsOff3b_sub : (opsOff3b : List (HloOp τ sig (Elt F))).Forall fun op => op.bufs ⊆ tcRefs τ sig :=
  ⟨binary_bufs_sub .., unary_bufs_sub .., reshape_bufs_sub .., binary_bufs_sub .., binary_bufs_sub ..⟩
theorem opsOff3b_fresh : (opsOff3b : List (HloOp τ sig (Elt F))).Forall fun op => op.fresh = ∅ := by
  simp only [List.Forall]; repeat' constructor

theorem opsOff4_sub : (opsOff4 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub ..⟩
theorem opsOff4_fresh : (opsOff4 : List (HloOp τ sig (Elt F))).Forall fun op => op.fresh = ∅ := by
  simp only [List.Forall]; repeat' constructor

theorem opsOff5_sub : (opsOff5 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub ..⟩
theorem opsOff5_fresh : (opsOff5 : List (HloOp τ sig (Elt F))).Forall fun op => op.fresh = ∅ := by
  simp only [List.Forall]; repeat' constructor

theorem opsOff6_sub : (opsOff6 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub ..⟩
theorem opsOff6_fresh : (opsOff6 : List (HloOp τ sig (Elt F))).Forall fun op => op.fresh = ∅ := by
  simp only [List.Forall]; repeat' constructor

theorem opsOff7a_sub : (opsOff7a : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub ..⟩
theorem opsOff7a_fresh : (opsOff7a : List (HloOp τ sig (Elt F))).Forall fun op => op.fresh = ∅ := by
  simp only [List.Forall]; repeat' constructor

theorem opsOff7b_sub : (opsOff7b : List (HloOp τ sig (Elt F))).Forall fun op => op.bufs ⊆ tcRefs τ sig :=
  ⟨binary_bufs_sub .., unary_bufs_sub .., reshape_bufs_sub .., binary_bufs_sub .., binary_bufs_sub ..⟩
theorem opsOff7b_fresh : (opsOff7b : List (HloOp τ sig (Elt F))).Forall fun op => op.fresh = ∅ := by
  simp only [List.Forall]; repeat' constructor

theorem opsMean_sub : (opsMean : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem opsMean_fresh : (opsMean : List (HloOp τ sig (Elt F))).Forall fun op => op.fresh = ∅ := by
  simp only [List.Forall]; repeat' constructor

theorem opsVar_sub : (opsVar : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsVar_fresh : (opsVar : List (HloOp τ sig (Elt F))).Forall fun op => op.fresh = ∅ := by
  simp only [List.Forall]; repeat' constructor

theorem opsNorm_sub : (opsNorm : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsNorm_fresh : (opsNorm : List (HloOp τ sig (Elt F))).Forall fun op => op.fresh = ∅ := by
  simp only [List.Forall]; repeat' constructor

theorem opsRelu_sub : (opsRelu : List (HloOp τ sig (Elt F))).Forall fun op => op.bufs ⊆ tcRefs τ sig :=
  ⟨nullary_bufs_sub .., unary_bufs_sub .., binary_bufs_sub ..⟩
theorem opsRelu_fresh : (opsRelu : List (HloOp τ sig (Elt F))).Forall fun op => op.fresh = ∅ := by
  simp only [List.Forall]; repeat' constructor

theorem ops_sub : (ops : List (HloOp τ sig (Elt F))).Forall fun op => op.bufs ⊆ tcRefs τ sig :=
  forall_append (forall_append (forall_append (forall_append (forall_append (forall_append (forall_append (forall_append (forall_append (forall_append (forall_append (forall_append (forall_append (forall_append (opsPre_sub) opsOff0_sub) opsOff1_sub) opsOff2_sub) opsOff3a_sub) opsOff3b_sub) opsOff4_sub) opsOff5_sub) opsOff6_sub) opsOff7a_sub) opsOff7b_sub) opsMean_sub) opsVar_sub) opsNorm_sub) opsRelu_sub

theorem ops_fresh : (ops : List (HloOp τ sig (Elt F))).Forall fun op => op.fresh = ∅ :=
  forall_append (forall_append (forall_append (forall_append (forall_append (forall_append (forall_append (forall_append (forall_append (forall_append (forall_append (forall_append (forall_append (forall_append (opsPre_fresh) opsOff0_fresh) opsOff1_fresh) opsOff2_fresh) opsOff3a_fresh) opsOff3b_fresh) opsOff4_fresh) opsOff5_fresh) opsOff6_fresh) opsOff7a_fresh) opsOff7b_fresh) opsMean_fresh) opsVar_fresh) opsNorm_fresh) opsRelu_fresh

/-! ## Reading the line stretch by stretch -/

/-- The contents after two lists run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The five arguments hold in `V` what they held in `V₀`. -/
structure Kept (V₀ V : Valuation τ sig (Elt F)) : Prop where
  a0 : V (main_arg0 : DevRef τ sig) = V₀ (main_arg0 : DevRef τ sig)
  a1 : V (main_arg1 : DevRef τ sig) = V₀ (main_arg1 : DevRef τ sig)
  a2 : V (main_arg2 : DevRef τ sig) = V₀ (main_arg2 : DevRef τ sig)
  a3 : V (main_arg3 : DevRef τ sig) = V₀ (main_arg3 : DevRef τ sig)
  a4 : V (main_arg4 : DevRef τ sig) = V₀ (main_arg4 : DevRef τ sig)

theorem Kept.refl (V : Valuation τ sig (Elt F)) : Kept V V := ⟨rfl, rfl, rfl, rfl, rfl⟩

/-- Between two offsets: the arguments as at the start, and the padded feature table in its buffer. -/
structure Mid (V₀ V : Valuation τ sig (Elt F)) : Prop extends Kept V₀ V where
  v1 : V (main_v1 : DevRef τ sig) = Cert.Spec.padded (V₀ (main_arg0 : DevRef τ sig))

/-- No operation of the first stretch writes an argument. -/
theorem pre_kept {V₀ V : Valuation τ sig (Elt F)} (h : Kept V₀ V) : Kept V₀ (after opsPre V) :=
  ⟨(by after_results_simp : (after opsPre V) (main_arg0 : DevRef τ sig) = V (main_arg0 : DevRef τ sig)).trans h.a0,
    (by after_results_simp : (after opsPre V) (main_arg1 : DevRef τ sig) = V (main_arg1 : DevRef τ sig)).trans h.a1,
    (by after_results_simp : (after opsPre V) (main_arg2 : DevRef τ sig) = V (main_arg2 : DevRef τ sig)).trans h.a2,
    (by after_results_simp : (after opsPre V) (main_arg3 : DevRef τ sig) = V (main_arg3 : DevRef τ sig)).trans h.a3,
    (by after_results_simp : (after opsPre V) (main_arg4 : DevRef τ sig) = V (main_arg4 : DevRef τ sig)).trans h.a4⟩

/-- No operation of offset 0 writes an argument. -/
theorem off0_kept {V₀ V : Valuation τ sig (Elt F)} (h : Kept V₀ V) : Kept V₀ (after opsOff0 V) :=
  ⟨(by after_results_simp : (after opsOff0 V) (main_arg0 : DevRef τ sig) = V (main_arg0 : DevRef τ sig)).trans h.a0,
    (by after_results_simp : (after opsOff0 V) (main_arg1 : DevRef τ sig) = V (main_arg1 : DevRef τ sig)).trans h.a1,
    (by after_results_simp : (after opsOff0 V) (main_arg2 : DevRef τ sig) = V (main_arg2 : DevRef τ sig)).trans h.a2,
    (by after_results_simp : (after opsOff0 V) (main_arg3 : DevRef τ sig) = V (main_arg3 : DevRef τ sig)).trans h.a3,
    (by after_results_simp : (after opsOff0 V) (main_arg4 : DevRef τ sig) = V (main_arg4 : DevRef τ sig)).trans h.a4⟩

/-- No operation of offset 1 writes an argument. -/
theorem off1_kept {V₀ V : Valuation τ sig (Elt F)} (h : Kept V₀ V) : Kept V₀ (after opsOff1 V) :=
  ⟨(by after_results_simp : (after opsOff1 V) (main_arg0 : DevRef τ sig) = V (main_arg0 : DevRef τ sig)).trans h.a0,
    (by after_results_simp : (after opsOff1 V) (main_arg1 : DevRef τ sig) = V (main_arg1 : DevRef τ sig)).trans h.a1,
    (by after_results_simp : (after opsOff1 V) (main_arg2 : DevRef τ sig) = V (main_arg2 : DevRef τ sig)).trans h.a2,
    (by after_results_simp : (after opsOff1 V) (main_arg3 : DevRef τ sig) = V (main_arg3 : DevRef τ sig)).trans h.a3,
    (by after_results_simp : (after opsOff1 V) (main_arg4 : DevRef τ sig) = V (main_arg4 : DevRef τ sig)).trans h.a4⟩

/-- No operation of offset 2 writes an argument. -/
theorem off2_kept {V₀ V : Valuation τ sig (Elt F)} (h : Kept V₀ V) : Kept V₀ (after opsOff2 V) :=
  ⟨(by after_results_simp : (after opsOff2 V) (main_arg0 : DevRef τ sig) = V (main_arg0 : DevRef τ sig)).trans h.a0,
    (by after_results_simp : (after opsOff2 V) (main_arg1 : DevRef τ sig) = V (main_arg1 : DevRef τ sig)).trans h.a1,
    (by after_results_simp : (after opsOff2 V) (main_arg2 : DevRef τ sig) = V (main_arg2 : DevRef τ sig)).trans h.a2,
    (by after_results_simp : (after opsOff2 V) (main_arg3 : DevRef τ sig) = V (main_arg3 : DevRef τ sig)).trans h.a3,
    (by after_results_simp : (after opsOff2 V) (main_arg4 : DevRef τ sig) = V (main_arg4 : DevRef τ sig)).trans h.a4⟩

/-- No operation of offset 3 writes an argument. -/
theorem off3_kept {V₀ V : Valuation τ sig (Elt F)} (h : Kept V₀ V) : Kept V₀ (after opsOff3b (after opsOff3a V)) :=
  ⟨(by after_results_simp : (after opsOff3b (after opsOff3a V)) (main_arg0 : DevRef τ sig) = V (main_arg0 : DevRef τ sig)).trans h.a0,
    (by after_results_simp : (after opsOff3b (after opsOff3a V)) (main_arg1 : DevRef τ sig) = V (main_arg1 : DevRef τ sig)).trans h.a1,
    (by after_results_simp : (after opsOff3b (after opsOff3a V)) (main_arg2 : DevRef τ sig) = V (main_arg2 : DevRef τ sig)).trans h.a2,
    (by after_results_simp : (after opsOff3b (after opsOff3a V)) (main_arg3 : DevRef τ sig) = V (main_arg3 : DevRef τ sig)).trans h.a3,
    (by after_results_simp : (after opsOff3b (after opsOff3a V)) (main_arg4 : DevRef τ sig) = V (main_arg4 : DevRef τ sig)).trans h.a4⟩

/-- No operation of offset 4 writes an argument. -/
theorem off4_kept {V₀ V : Valuation τ sig (Elt F)} (h : Kept V₀ V) : Kept V₀ (after opsOff4 V) :=
  ⟨(by after_results_simp : (after opsOff4 V) (main_arg0 : DevRef τ sig) = V (main_arg0 : DevRef τ sig)).trans h.a0,
    (by after_results_simp : (after opsOff4 V) (main_arg1 : DevRef τ sig) = V (main_arg1 : DevRef τ sig)).trans h.a1,
    (by after_results_simp : (after opsOff4 V) (main_arg2 : DevRef τ sig) = V (main_arg2 : DevRef τ sig)).trans h.a2,
    (by after_results_simp : (after opsOff4 V) (main_arg3 : DevRef τ sig) = V (main_arg3 : DevRef τ sig)).trans h.a3,
    (by after_results_simp : (after opsOff4 V) (main_arg4 : DevRef τ sig) = V (main_arg4 : DevRef τ sig)).trans h.a4⟩

/-- No operation of offset 5 writes an argument. -/
theorem off5_kept {V₀ V : Valuation τ sig (Elt F)} (h : Kept V₀ V) : Kept V₀ (after opsOff5 V) :=
  ⟨(by after_results_simp : (after opsOff5 V) (main_arg0 : DevRef τ sig) = V (main_arg0 : DevRef τ sig)).trans h.a0,
    (by after_results_simp : (after opsOff5 V) (main_arg1 : DevRef τ sig) = V (main_arg1 : DevRef τ sig)).trans h.a1,
    (by after_results_simp : (after opsOff5 V) (main_arg2 : DevRef τ sig) = V (main_arg2 : DevRef τ sig)).trans h.a2,
    (by after_results_simp : (after opsOff5 V) (main_arg3 : DevRef τ sig) = V (main_arg3 : DevRef τ sig)).trans h.a3,
    (by after_results_simp : (after opsOff5 V) (main_arg4 : DevRef τ sig) = V (main_arg4 : DevRef τ sig)).trans h.a4⟩

/-- No operation of offset 6 writes an argument. -/
theorem off6_kept {V₀ V : Valuation τ sig (Elt F)} (h : Kept V₀ V) : Kept V₀ (after opsOff6 V) :=
  ⟨(by after_results_simp : (after opsOff6 V) (main_arg0 : DevRef τ sig) = V (main_arg0 : DevRef τ sig)).trans h.a0,
    (by after_results_simp : (after opsOff6 V) (main_arg1 : DevRef τ sig) = V (main_arg1 : DevRef τ sig)).trans h.a1,
    (by after_results_simp : (after opsOff6 V) (main_arg2 : DevRef τ sig) = V (main_arg2 : DevRef τ sig)).trans h.a2,
    (by after_results_simp : (after opsOff6 V) (main_arg3 : DevRef τ sig) = V (main_arg3 : DevRef τ sig)).trans h.a3,
    (by after_results_simp : (after opsOff6 V) (main_arg4 : DevRef τ sig) = V (main_arg4 : DevRef τ sig)).trans h.a4⟩

/-- No operation of offset 7 writes an argument. -/
theorem off7_kept {V₀ V : Valuation τ sig (Elt F)} (h : Kept V₀ V) : Kept V₀ (after opsOff7b (after opsOff7a V)) :=
  ⟨(by after_results_simp : (after opsOff7b (after opsOff7a V)) (main_arg0 : DevRef τ sig) = V (main_arg0 : DevRef τ sig)).trans h.a0,
    (by after_results_simp : (after opsOff7b (after opsOff7a V)) (main_arg1 : DevRef τ sig) = V (main_arg1 : DevRef τ sig)).trans h.a1,
    (by after_results_simp : (after opsOff7b (after opsOff7a V)) (main_arg2 : DevRef τ sig) = V (main_arg2 : DevRef τ sig)).trans h.a2,
    (by after_results_simp : (after opsOff7b (after opsOff7a V)) (main_arg3 : DevRef τ sig) = V (main_arg3 : DevRef τ sig)).trans h.a3,
    (by after_results_simp : (after opsOff7b (after opsOff7a V)) (main_arg4 : DevRef τ sig) = V (main_arg4 : DevRef τ sig)).trans h.a4⟩

/-- No operation of the normalisation writes an argument. -/
theorem tail_kept {V₀ V : Valuation τ sig (Elt F)} (h : Kept V₀ V) : Kept V₀ (after opsRelu (after opsNorm (after opsVar (after opsMean V)))) :=
  ⟨(by after_results_simp : (after opsRelu (after opsNorm (after opsVar (after opsMean V)))) (main_arg0 : DevRef τ sig) = V (main_arg0 : DevRef τ sig)).trans h.a0,
    (by after_results_simp : (after opsRelu (after opsNorm (after opsVar (after opsMean V)))) (main_arg1 : DevRef τ sig) = V (main_arg1 : DevRef τ sig)).trans h.a1,
    (by after_results_simp : (after opsRelu (after opsNorm (after opsVar (after opsMean V)))) (main_arg2 : DevRef τ sig) = V (main_arg2 : DevRef τ sig)).trans h.a2,
    (by after_results_simp : (after opsRelu (after opsNorm (after opsVar (after opsMean V)))) (main_arg3 : DevRef τ sig) = V (main_arg3 : DevRef τ sig)).trans h.a3,
    (by after_results_simp : (after opsRelu (after opsNorm (after opsVar (after opsMean V)))) (main_arg4 : DevRef τ sig) = V (main_arg4 : DevRef τ sig)).trans h.a4⟩

/-- The first stretch leaves the padded feature table in its buffer. -/
theorem pre_v1 (V : Valuation τ sig (Elt F)) :
    after opsPre V (main_v1 : DevRef τ sig) = Cert.Spec.padded (V (main_arg0 : DevRef τ sig)) := by
  after_results
  rfl

/-- The first stretch leaves the zero matrix in the buffer the products are added onto. -/
theorem pre_v2 (V : Valuation τ sig (Elt F)) :
    after opsPre V (main_v2 : DevRef τ sig)
      = broadcastInDim Cert.Spec.SOut ![] Cert.Spec.bc_S0_Out (constant Cert.Spec.S0 .f32 0x00000000#32) := by
  after_results

theorem pre_mid (V : Valuation τ sig (Elt F)) : Mid V (after opsPre V) :=
  ⟨pre_kept (Kept.refl V), pre_v1 V⟩

/-! Each offset keeps the padded table and the arguments, and adds its product onto the sum so far. -/

theorem off0_mid {V₀ V : Valuation τ sig (Elt F)} (h : Mid V₀ V) : Mid V₀ (after opsOff0 V) :=
  ⟨off0_kept h.toKept, (by after_results_simp : (after opsOff0 V) (main_v1 : DevRef τ sig) = V (main_v1 : DevRef τ sig)).trans h.v1⟩

theorem off1_mid {V₀ V : Valuation τ sig (Elt F)} (h : Mid V₀ V) : Mid V₀ (after opsOff1 V) :=
  ⟨off1_kept h.toKept, (by after_results_simp : (after opsOff1 V) (main_v1 : DevRef τ sig) = V (main_v1 : DevRef τ sig)).trans h.v1⟩

theorem off2_mid {V₀ V : Valuation τ sig (Elt F)} (h : Mid V₀ V) : Mid V₀ (after opsOff2 V) :=
  ⟨off2_kept h.toKept, (by after_results_simp : (after opsOff2 V) (main_v1 : DevRef τ sig) = V (main_v1 : DevRef τ sig)).trans h.v1⟩

theorem off3_mid {V₀ V : Valuation τ sig (Elt F)} (h : Mid V₀ V) : Mid V₀ (after opsOff3b (after opsOff3a V)) :=
  ⟨off3_kept h.toKept, (by after_results_simp : (after opsOff3b (after opsOff3a V)) (main_v1 : DevRef τ sig) = V (main_v1 : DevRef τ sig)).trans h.v1⟩

theorem off4_mid {V₀ V : Valuation τ sig (Elt F)} (h : Mid V₀ V) : Mid V₀ (after opsOff4 V) :=
  ⟨off4_kept h.toKept, (by after_results_simp : (after opsOff4 V) (main_v1 : DevRef τ sig) = V (main_v1 : DevRef τ sig)).trans h.v1⟩

theorem off5_mid {V₀ V : Valuation τ sig (Elt F)} (h : Mid V₀ V) : Mid V₀ (after opsOff5 V) :=
  ⟨off5_kept h.toKept, (by after_results_simp : (after opsOff5 V) (main_v1 : DevRef τ sig) = V (main_v1 : DevRef τ sig)).trans h.v1⟩

theorem off6_mid {V₀ V : Valuation τ sig (Elt F)} (h : Mid V₀ V) : Mid V₀ (after opsOff6 V) :=
  ⟨off6_kept h.toKept, (by after_results_simp : (after opsOff6 V) (main_v1 : DevRef τ sig) = V (main_v1 : DevRef τ sig)).trans h.v1⟩

theorem off7_mid {V₀ V : Valuation τ sig (Elt F)} (h : Mid V₀ V) : Mid V₀ (after opsOff7b (after opsOff7a V)) :=
  ⟨off7_kept h.toKept, (by after_results_simp : (after opsOff7b (after opsOff7a V)) (main_v1 : DevRef τ sig) = V (main_v1 : DevRef τ sig)).trans h.v1⟩

/-- Offset 0: the sum so far plus the product of offset 0. -/
theorem off0_step {V₀ V : Valuation τ sig (Elt F)} (h : Mid V₀ V) :
    (after opsOff0 V) (main_v15 : DevRef τ sig)
      = addf (V (main_v2 : DevRef τ sig))
          (Cert.Spec.offsetProduct 0 (by decide) (by decide) (V₀ (main_arg0 : DevRef τ sig)) (V₀ (main_arg1 : DevRef τ sig)) (V₀ (main_arg4 : DevRef τ sig))) := by
  generalize hP : Cert.Spec.offsetProduct (F := F) _ _ _ _ _ _ = P
  after_results_simp
  rw [h.v1, h.a1, h.a4, ← hP]
  rfl

/-- Offset 1: the sum so far plus the product of offset 1. -/
theorem off1_step {V₀ V : Valuation τ sig (Elt F)} (h : Mid V₀ V) :
    (after opsOff1 V) (main_v28 : DevRef τ sig)
      = addf (V (main_v15 : DevRef τ sig))
          (Cert.Spec.offsetProduct 1 (by decide) (by decide) (V₀ (main_arg0 : DevRef τ sig)) (V₀ (main_arg1 : DevRef τ sig)) (V₀ (main_arg4 : DevRef τ sig))) := by
  generalize hP : Cert.Spec.offsetProduct (F := F) _ _ _ _ _ _ = P
  after_results_simp
  rw [h.v1, h.a1, h.a4, ← hP]
  rfl

/-- Offset 2: the sum so far plus the product of offset 2. -/
theorem off2_step {V₀ V : Valuation τ sig (Elt F)} (h : Mid V₀ V) :
    (after opsOff2 V) (main_v41 : DevRef τ sig)
      = addf (V (main_v28 : DevRef τ sig))
          (Cert.Spec.offsetProduct 2 (by decide) (by decide) (V₀ (main_arg0 : DevRef τ sig)) (V₀ (main_arg1 : DevRef τ sig)) (V₀ (main_arg4 : DevRef τ sig))) := by
  generalize hP : Cert.Spec.offsetProduct (F := F) _ _ _ _ _ _ = P
  after_results_simp
  rw [h.v1, h.a1, h.a4, ← hP]
  rfl

/-- Offset 3: the sum so far plus the product of offset 3. -/
theorem off3_step {V₀ V : Valuation τ sig (Elt F)} (h : Mid V₀ V) :
    (after opsOff3b (after opsOff3a V)) (main_v54 : DevRef τ sig)
      = addf (V (main_v41 : DevRef τ sig))
          (Cert.Spec.offsetProduct 3 (by decide) (by decide) (V₀ (main_arg0 : DevRef τ sig)) (V₀ (main_arg1 : DevRef τ sig)) (V₀ (main_arg4 : DevRef τ sig))) := by
  generalize hP : Cert.Spec.offsetProduct (F := F) _ _ _ _ _ _ = P
  after_results_simp
  rw [h.v1, h.a1, h.a4, ← hP]
  rfl

/-- Offset 4: the sum so far plus the product of offset 4. -/
theorem off4_step {V₀ V : Valuation τ sig (Elt F)} (h : Mid V₀ V) :
    (after opsOff4 V) (main_v67 : DevRef τ sig)
      = addf (V (main_v54 : DevRef τ sig))
          (Cert.Spec.offsetProduct 4 (by decide) (by decide) (V₀ (main_arg0 : DevRef τ sig)) (V₀ (main_arg1 : DevRef τ sig)) (V₀ (main_arg4 : DevRef τ sig))) := by
  generalize hP : Cert.Spec.offsetProduct (F := F) _ _ _ _ _ _ = P
  after_results_simp
  rw [h.v1, h.a1, h.a4, ← hP]
  rfl

/-- Offset 5: the sum so far plus the product of offset 5. -/
theorem off5_step {V₀ V : Valuation τ sig (Elt F)} (h : Mid V₀ V) :
    (after opsOff5 V) (main_v80 : DevRef τ sig)
      = addf (V (main_v67 : DevRef τ sig))
          (Cert.Spec.offsetProduct 5 (by decide) (by decide) (V₀ (main_arg0 : DevRef τ sig)) (V₀ (main_arg1 : DevRef τ sig)) (V₀ (main_arg4 : DevRef τ sig))) := by
  generalize hP : Cert.Spec.offsetProduct (F := F) _ _ _ _ _ _ = P
  after_results_simp
  rw [h.v1, h.a1, h.a4, ← hP]
  rfl

/-- Offset 6: the sum so far plus the product of offset 6. -/
theorem off6_step {V₀ V : Valuation τ sig (Elt F)} (h : Mid V₀ V) :
    (after opsOff6 V) (main_v93 : DevRef τ sig)
      = addf (V (main_v80 : DevRef τ sig))
          (Cert.Spec.offsetProduct 6 (by decide) (by decide) (V₀ (main_arg0 : DevRef τ sig)) (V₀ (main_arg1 : DevRef τ sig)) (V₀ (main_arg4 : DevRef τ sig))) := by
  generalize hP : Cert.Spec.offsetProduct (F := F) _ _ _ _ _ _ = P
  after_results_simp
  rw [h.v1, h.a1, h.a4, ← hP]
  rfl

/-- Offset 7: the sum so far plus the product of offset 7. -/
theorem off7_step {V₀ V : Valuation τ sig (Elt F)} (h : Mid V₀ V) :
    (after opsOff7b (after opsOff7a V)) (main_v106 : DevRef τ sig)
      = addf (V (main_v93 : DevRef τ sig))
          (Cert.Spec.offsetProduct 7 (by decide) (by decide) (V₀ (main_arg0 : DevRef τ sig)) (V₀ (main_arg1 : DevRef τ sig)) (V₀ (main_arg4 : DevRef τ sig))) := by
  generalize hP : Cert.Spec.offsetProduct (F := F) _ _ _ _ _ _ = P
  after_results_simp
  rw [h.v1, h.a1, h.a4, ← hP]
  rfl

/-- The contents once the eight products are accumulated. -/
abbrev VAcc (V : Valuation τ sig (Elt F)) : Valuation τ sig (Elt F) :=
  after opsOff7b (after opsOff7a (after opsOff6 (after opsOff5 (after opsOff4 (after opsOff3b (after opsOff3a (after opsOff2 (after opsOff1 (after opsOff0 (after opsPre V))))))))))

theorem ops_after (V : Valuation τ sig (Elt F)) : after ops V = after opsRelu (after opsNorm (after opsVar (after opsMean (VAcc V)))) := by
  simp only [ops, VAcc, after_append]

/-- After the eight offsets the accumulator holds the eight products added in order onto the zero matrix. -/
theorem acc_eq (V : Valuation τ sig (Elt F)) :
    VAcc V (main_v106 : DevRef τ sig)
      = Cert.Spec.accumulated (V (main_arg0 : DevRef τ sig)) (V (main_arg1 : DevRef τ sig)) (V (main_arg4 : DevRef τ sig)) := by
  unfold VAcc
  have h0 := pre_mid V
  have h1 := off0_mid h0
  have h2 := off1_mid h1
  have h3 := off2_mid h2
  have h4 := off3_mid h3
  have h5 := off4_mid h4
  have h6 := off5_mid h5
  have h7 := off6_mid h6
  rw [off7_step h7, off6_step h6, off5_step h5, off4_step h4, off3_step h3, off2_step h2, off1_step h1, off0_step h0, pre_v2]
  rfl

theorem acc_kept (V : Valuation τ sig (Elt F)) : Kept V (VAcc V) :=
  (off7_mid (off6_mid (off5_mid (off4_mid (off3_mid (off2_mid (off1_mid (off0_mid (pre_mid V))))))))).toKept

/-- The last four stretches — the column means, the variance, the scaling and the rectifier — compute the
    normalisation of whatever the accumulator holds. -/
theorem tail_out (V : Valuation τ sig (Elt F)) :
    (after opsRelu (after opsNorm (after opsVar (after opsMean V)))) (main_v126 : DevRef τ sig)
      = Cert.Spec.tail (V (main_v106 : DevRef τ sig)) (V (main_arg2 : DevRef τ sig)) (V (main_arg3 : DevRef τ sig)) := by
  after_results_simp
  rfl

/-- The result buffer after the whole line, as a function of the arguments' contents. -/
theorem out_eq (V : Valuation τ sig (Elt F)) :
    after ops V (main_v126 : DevRef τ sig)
      = Cert.Spec.tail (Cert.Spec.accumulated (V (main_arg0 : DevRef τ sig)) (V (main_arg1 : DevRef τ sig)) (V (main_arg4 : DevRef τ sig)))
          (V (main_arg2 : DevRef τ sig)) (V (main_arg3 : DevRef τ sig)) := by
  rw [ops_after, tail_out, acc_eq, (acc_kept V).a2, (acc_kept V).a3]

/-- No operation of the line writes an argument. -/
theorem args_kept (V : Valuation τ sig (Elt F)) : Kept V (after ops V) := by
  rw [ops_after]
  exact tail_kept (acc_kept V)

/-- Every weakly fair execution of the reference ends with its result at the normalisation of the eight accumulated
    products, and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v126)
        = Cert.Spec.tail (Cert.Spec.accumulated (m ((c.tc : Thread nD τ).loc main_arg0)) (m ((c.tc : Thread nD τ).loc main_arg1)) (m ((c.tc : Thread nD τ).loc main_arg4)))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v126).trans (out_eq _),
      (h c main_arg0).trans (args_kept _).a0,
      (h c main_arg1).trans (args_kept _).a1,
      (h c main_arg2).trans (args_kept _).a2,
      (h c main_arg3).trans (args_kept _).a3,
      (h c main_arg4).trans (args_kept _).a4⟩)
    (run_seq scopedRefs_eq scopedSems_eq defs main (fun _ => ops) main_eq (fun _ => ops_sub) m ρ
      (fun _ => List.forall_iff_forall_mem.mp ops_fresh))

end Cert.ReferenceIdeal.RVal

end
-- ==== Proof.LibBlockSum.lean ====
/-
  A sum over B·J consecutive naturals, block by block (a general lemma: nothing here depends on a program).
-/
import Mathlib.Algebra.BigOperators.Fin
import Mathlib.Algebra.BigOperators.Intervals

namespace BlockSum

/-- The sum of `f` over `0 … B·J − 1` is the sum over the `J` blocks of the `B` terms of each block. -/
theorem sum_blocks {β : Type*} [AddCommMonoid β] (B J : ℕ) (f : ℕ → β) :
    ∑ s ∈ Finset.range J, ∑ j : Fin B, f (B * s + j.val) = ∑ k : Fin (B * J), f k.val := by
  -- Both sides become sums over initial segments of ℕ; then one block is split off at a time.
  rw [Fin.sum_univ_eq_sum_range (fun k => f k) (B * J)]
  induction J with
  | zero => simp
  | succ J ih =>
    rw [Finset.sum_range_succ, ih, Nat.mul_succ, Finset.sum_range_add,
      Fin.sum_univ_eq_sum_range (fun j => f (B * J + j)) B]

end BlockSum
-- ==== Proof.LibMergeRows.lean ====
/-
  Two leading axes merged into one, and one leading axis split into two, read at an entry (a general lemma: nothing
  here depends on a program).

  An array [A, B, C] and an array [A·B, C] hold the same entries in the same row-major order: entry (a, b, c) of the
  first sits where entry (a·B + b, c) of the second does. So a shape cast from one to the other, in either
  direction, moves no entry: it only renames (a, b) as the row a·B + b. Any sizes A, B, C; the merged extent is a
  parameter N with the row r given together with the equation r = a·B + b, so that a literal extent (16384 for
  16·1024) is met without arithmetic on types.
-/
import Idealize.ShloMosaic.Lib.ValueIdx
import Idealize.ShloMosaic.Lib.Pipeline.Value

noncomputable section

namespace Cert.Lib.MergeRows

open Idealize.ShloMosaic Idealize.ShloMosaic.ValueIdx

/-- [A, B, C] viewed as [N, C]: the entry at row a·B + b, column c, is the entry (a, b, c). -/
theorem merge_apply {α : Type} {A B C N : Nat} (x : (⟨3, ![A, B, C]⟩ : Shape).Idx → α)
    (h : (⟨3, ![A, B, C]⟩ : Shape).ShapeCasts ⟨2, ![N, C]⟩) (a : Fin A) (b : Fin B) (c : Fin C) (r : Fin N)
    (hr : r.val = a.val * B + b.val) :
    shapeCast ⟨2, ![N, C]⟩ x h (ix2 r c) = x (ix3 a b c) := by
  refine shapeCast_apply x h (ix2 r c) (ix3 a b c) ?_
  rw [Shape.rowMajor_val_three, Shape.rowMajor_val_two]
  show (a.val * B + b.val) * C + c.val = r.val * C + c.val
  rw [hr]

/-- [N, C] viewed as [A, B, C]: the entry (a, b, c) is the entry at row a·B + b, column c. -/
theorem split_apply {α : Type} {A B C N : Nat} (x : (⟨2, ![N, C]⟩ : Shape).Idx → α)
    (h : (⟨2, ![N, C]⟩ : Shape).ShapeCasts ⟨3, ![A, B, C]⟩) (a : Fin A) (b : Fin B) (c : Fin C) (r : Fin N)
    (hr : r.val = a.val * B + b.val) :
    shapeCast ⟨3, ![A, B, C]⟩ x h (ix3 a b c) = x (ix2 r c) := by
  refine shapeCast_apply x h (ix3 a b c) (ix2 r c) ?_
  rw [Shape.rowMajor_val_three, Shape.rowMajor_val_two]
  show r.val * C + c.val = (a.val * B + b.val) * C + c.val
  rw [hr]

end Cert.Lib.MergeRows

end
-- ==== Proof.LibMergeCols.lean ====
/-
  Two trailing axes merged into one, read at an entry (a general lemma: nothing here depends on a program).

  An array [A, B, C] and a matrix [A, N] with N = B * C hold the same entries in the same row-major order: entry
  (a, b, c) of the first sits where entry (a, b * C + c) of the second does.  So the shape cast that merges the two
  trailing axes moves no entry.  Any sizes; the column j is given with the equation j = b * C + c, so that a literal
  extent (1024 for 8 * 128) is met without arithmetic on types.  (The companion of the leading-axes merge
  [A, B, C] -> [A * B, C] and of the column split [A, N] -> [A, B, C].)
-/
import Idealize.ShloMosaic.Lib.ValueIdx
import Idealize.ShloMosaic.Lib.Pipeline.Value

noncomputable section

namespace Cert.Lib.MergeCols

open Idealize.ShloMosaic Idealize.ShloMosaic.ValueIdx

/-- [A, B, C] viewed as [A, N] with N = B * C: the entry at row a, column b * C + c, is the entry (a, b, c). -/
theorem mergeCols_apply {α : Type} {A B C N : Nat} (x : (⟨3, ![A, B, C]⟩ : Shape).Idx → α)
    (h : (⟨3, ![A, B, C]⟩ : Shape).ShapeCasts ⟨2, ![A, N]⟩) (a : Fin A) (b : Fin B) (c : Fin C) (j : Fin N)
    (hN : N = B * C) (hj : j.val = b.val * C + c.val) :
    shapeCast ⟨2, ![A, N]⟩ x h (ix2 a j) = x (ix3 a b c) := by
  refine shapeCast_apply x h (ix2 a j) (ix3 a b c) ?_
  rw [Shape.rowMajor_val_three, Shape.rowMajor_val_two]
  show (a.val * B + b.val) * C + c.val = a.val * N + j.val
  rw [hj, hN, Nat.add_mul, Nat.mul_assoc, Nat.add_assoc]

end Cert.Lib.MergeCols

end
-- ==== Proof.Bridge.lean ====
/-
  The reference's eight accumulated products and the one flattened product are the same array over the extended reals.

  Entry (r, q) of the flattened product is the sum over j < 1024 of G[r, j] * Wf[j, q]; with j = 128 k + c the factor
  G[r, j] is the padded table at the row read for idx[r, k], column c, and Wf[j, q] is W[k, c, q].  Entry (r, q) of the
  product of offset k is the sum over c < 128 of the same two factors.  Splitting the 1024 positions into eight blocks
  of 128 therefore turns the one sum into the eight sums, added in the reference's order onto zero.
-/
import proofs.«104532_j25967372272144_1_alg».proof.Proof.Spec
import proofs.«104532_j25967372272144_1_alg».proof.Proof.LibMatmul
import proofs.«104532_j25967372272144_1_alg».proof.Proof.LibBlockSum
import proofs.«104532_j25967372272144_1_alg».proof.Proof.LibMergeRows
import proofs.«104532_j25967372272144_1_alg».proof.Proof.LibMergeCols
import Idealize.ShloMosaic.PureOps.Ideal.Laws
import Idealize.ShloMosaic.Lib.Pipeline.Value

noncomputable section

namespace Cert.Spec

open Idealize.ShloMosaic Idealize.ShloMosaic.ValueIdx

/-- An index word with a negative one moved up by the number of rows. -/
def wrapWord (w : BitVec 32) : BitVec 32 :=
  Scalar.select (IntOp.cmpi .slt w 0#32) (IntOp.addi w 400001#32) w

/-- The row of the padded table a gather reads for an index word: the wrapped word read signed, capped at 400000. -/
def rowOf (w : BitVec 32) : Fin 400001 := ⟨min (wrapWord w).toInt.toNat (400001 - 1), by omega⟩

/-- The index array with a trailing unit axis, read at (r, k, 0): the wrapped word at (r, k). -/
theorem wrapAll3_apply (idx : IVec SIdx 32) (r : Fin 100000) (k : Fin 8) :
    broadcastInDim SIdx3 ![0, 1] bc_Idx_Idx3 (wrapAll idx) (ix3 r k 0) = wrapWord (idx (ix2 r k)) := by
  have e := broadcastInDim_apply (s := SIdx) (t := SIdx3) ![0, 1] bc_Idx_Idx3 (wrapAll idx) (ix3 r k 0) (ix2 r k)
    (by
      intro a
      match a with
      | ⟨0, _⟩ =>
        show r.val = if (100000 : ℕ) = 1 then 0 else r.val
        rw [if_neg (by omega)]
      | ⟨1, _⟩ =>
        show k.val = if (8 : ℕ) = 1 then 0 else k.val
        rw [if_neg (by omega)])
  rw [e]
  rfl

/-- The rank-3 row gather at (r, k, c), the start index at (r, k, 0) named. -/
theorem gather3_at (x : FVec Ideal SPad .f32) (i3 : IVec SIdx3 32) (r : Fin 100000) (k : Fin 8) (c : Fin 128)
    (w : BitVec 32) (hw : i3 (ix3 r k 0) = w) :
    Host.gather (Cert.Lib.RowGather3.rowDims 400001 128 100000 8 wf_gather3) x i3 (ix3 r k c)
      = x (ix2 (⟨min w.toInt.toNat (400001 - 1), by omega⟩ : Fin 400001) c) := by
  subst hw
  exact Cert.Lib.RowGather3.gather_rows_apply (by omega) wf_gather3 x i3 r k c

/-- The flattened gathered rows at (r, 128 k + c): the padded table at the row read for idx[r, k], column c. -/
theorem gatheredFlat_apply (feats : FVec Ideal SFeat .f32) (idx : IVec SIdx 32) (r : Fin 100000) (k : Fin 8)
    (c : Fin 128) (j : Fin 1024) (hj : j.val = k.val * 128 + c.val) :
    gatheredFlat feats idx (ix2 r j) = padded feats (ix2 (rowOf (idx (ix2 r k))) c) := by
  unfold gatheredFlat
  rw [truncf_apply, Cert.Lib.MergeCols.mergeCols_apply _ sc_G3_G r k c j rfl hj,
    gather3_at _ _ r k c _ (wrapAll3_apply idx r k)]
  rfl

/-- The flattened weights at (128 k + c, q): the weight (k, c, q). -/
theorem weightsFlat_apply (W : FVec Ideal SW .f32) (k : Fin 8) (c : Fin 128) (q : Fin 256) (j : Fin 1024)
    (hj : j.val = k.val * 128 + c.val) :
    weightsFlat W (ix2 j q) = W (ix3 k c q) := by
  unfold weightsFlat
  rw [truncf_apply]
  exact Cert.Lib.MergeRows.merge_apply W sc_W_Wf k c q j hj

/-- Column o of the index array, wrapped and given back a trailing unit axis, read at (r, 0): the wrapped word at
    (r, o). -/
theorem wrapCol2_apply (o : Nat) (h8 : o < 8) (ho : SIdx.Slices ![0, o] SCol) (idx : IVec SIdx 32) (r : Fin 100000) :
    broadcastInDim SCol ![0] bc_Vec_Col (wrapCol o ho idx) (ix2 r 0) = wrapWord (idx (ix2 r ⟨o, h8⟩)) := by
  have e := broadcastInDim_apply (s := SVec) (t := SCol) ![0] bc_Vec_Col (wrapCol o ho idx) (ix2 r 0) (ix1 r)
    (by
      intro a
      match a with
      | ⟨0, _⟩ =>
        show r.val = if (100000 : ℕ) = 1 then 0 else r.val
        rw [if_neg (by omega)])
  have e1 : shapeCast SVec (extractStridedSlice SCol ![0, o] idx ho) sc_Col_Vec (ix1 r)
      = extractStridedSlice SCol ![0, o] idx ho (ix2 r 0) := by
    refine shapeCast_apply _ sc_Col_Vec (ix1 r) (ix2 r 0) ?_
    rw [Shape.rowMajor_val_two, Shape.rowMajor_val_one]
    show r.val * 1 + 0 = r.val
    omega
  have e2 : extractStridedSlice SCol ![0, o] idx ho (ix2 r 0) = idx (ix2 r ⟨o, h8⟩) := by
    refine extractStridedSlice_apply (s := SIdx) (t := SCol) ![0, o] idx ho (ix2 r 0) (ix2 r ⟨o, h8⟩) ?_
    intro a
    match a with
    | ⟨0, _⟩ => show r.val = 0 + r.val; omega
    | ⟨1, _⟩ => show o = o + 0; omega
  rw [e]
  show Scalar.select (IntOp.cmpi .slt (shapeCast SVec (extractStridedSlice SCol ![0, o] idx ho) sc_Col_Vec (ix1 r)) 0#32)
      (IntOp.addi (shapeCast SVec (extractStridedSlice SCol ![0, o] idx ho) sc_Col_Vec (ix1 r)) 400001#32)
      (shapeCast SVec (extractStridedSlice SCol ![0, o] idx ho) sc_Col_Vec (ix1 r)) = _
  rw [e1, e2]
  rfl

/-- The rank-2 row gather at (r, c), the start index at (r, 0) named. -/
theorem gather2_at (x : FVec Ideal SPad .f32) (i2 : IVec SCol 32) (r : Fin 100000) (c : Fin 128)
    (w : BitVec 32) (hw : i2 (ix2 r 0) = w) :
    Host.gather (Cert.Lib.RowPass.gaD 400001 100000 128 wf_gather2) x i2 (ix2 r c)
      = x (ix2 (⟨min w.toInt.toNat (400001 - 1), by omega⟩ : Fin 400001) c) := by
  subst hw
  exact Cert.Lib.RowPass.ga_apply wf_gather2 (by omega) x i2 r c

/-- Slab o of the weights as a matrix, read at (c, q): the weight (o, c, q). -/
theorem slab_apply (o : Nat) (h8 : o < 8) (hw : SW.Slices ![o, 0, 0] SWk3) (W : FVec Ideal SW .f32) (c : Fin 128)
    (q : Fin 256) :
    shapeCast SWk (extractStridedSlice SWk3 ![o, 0, 0] W hw) sc_Wk3_Wk (ix2 c q) = W (ix3 ⟨o, h8⟩ c q) := by
  have e1 : shapeCast SWk (extractStridedSlice SWk3 ![o, 0, 0] W hw) sc_Wk3_Wk (ix2 c q)
      = extractStridedSlice SWk3 ![o, 0, 0] W hw (ix3 0 c q) := by
    refine shapeCast_apply _ sc_Wk3_Wk (ix2 c q) (ix3 0 c q) ?_
    rw [Shape.rowMajor_val_three, Shape.rowMajor_val_two]
    show (0 * 128 + c.val) * 256 + q.val = c.val * 256 + q.val
    omega
  rw [e1]
  refine extractStridedSlice_apply (s := SW) (t := SWk3) ![o, 0, 0] W hw (ix3 0 c q) (ix3 ⟨o, h8⟩ c q) ?_
  intro a
  match a with
  | ⟨0, _⟩ => show o = o + 0; omega
  | ⟨1, _⟩ => show c.val = 0 + c.val; omega
  | ⟨2, _⟩ => show q.val = 0 + q.val; omega

/-- The product of offset o at (r, q): the sum over the 128 input channels of the padded table at the row read for
    idx[r, o] times the weight (o, c, q). -/
theorem offsetProduct_apply (o : Nat) (h8 : o < 8) (ho : SIdx.Slices ![0, o] SCol) (hw : SW.Slices ![o, 0, 0] SWk3)
    (feats : FVec Ideal SFeat .f32) (W : FVec Ideal SW .f32) (idx : IVec SIdx 32) (r : Fin 100000) (q : Fin 256) :
    offsetProduct o ho hw feats W idx (ix2 r q)
      = ∑ c : Fin 128, padded feats (ix2 (rowOf (idx (ix2 r ⟨o, h8⟩))) c) * W (ix3 ⟨o, h8⟩ c q) := by
  unfold offsetProduct
  show FloatOps.dotGeneral (DotDims.plain 100000 128 256) none .single _ _ (ix2 r q) = _
  rw [Cert.Lib.Matmul.dotGeneral_apply]
  refine Finset.sum_congr rfl fun c _ => ?_
  rw [gather2_at _ _ r c _ (wrapCol2_apply o h8 ho idx r), slab_apply o h8 hw W c q]
  rfl

/-- The reference's eight accumulated products are the one product of the flattened operands: entry by entry both are
    the sum over the eight offsets and the 128 input channels of gathered feature times weight. -/
theorem accumulated_eq_product (feats : FVec Ideal SFeat .f32) (W : FVec Ideal SW .f32) (idx : IVec SIdx 32) :
    accumulated feats W idx = product (gatheredFlat feats idx) (weightsFlat W) := by
  funext i
  obtain ⟨r, q, rfl⟩ : ∃ (r : Fin 100000) (q : Fin 256), i = ix2 r q := ⟨i 0, i 1, eq_ix2 i⟩
  rw [product_apply]
  -- The flat sum over j < 1024 as a sum of a function of the natural number j.
  let f : ℕ → EReal := fun n => if h : n < 1024 then
    (gatheredFlat feats idx (ix2 r ⟨n, h⟩) : EReal) * (weightsFlat W (ix2 ⟨n, h⟩ q) : EReal) else 0
  have hflat : ∑ j : Fin 1024, (gatheredFlat feats idx (ix2 r j) : EReal) * (weightsFlat W (ix2 j q) : EReal)
      = ∑ j : Fin (128 * 8), f j.val := by
    show _ = ∑ j : Fin 1024, f j.val
    refine Finset.sum_congr rfl fun j _ => ?_
    show _ = dite (j.val < 1024) _ _
    rw [dif_pos j.isLt]
  -- Block s of 128 consecutive terms is the reference's sum for offset s: j = 128 s + c.
  have hblock : ∀ (s : ℕ) (hs : s < 8), ∑ c : Fin 128, f (128 * s + c.val)
      = ∑ c : Fin 128, padded feats (ix2 (rowOf (idx (ix2 r ⟨s, hs⟩))) c) * W (ix3 ⟨s, hs⟩ c q) := by
    intro s hs
    refine Finset.sum_congr rfl fun c _ => ?_
    have hc := c.isLt
    have hlt : 128 * s + c.val < 1024 := by omega
    have hj : (⟨128 * s + c.val, hlt⟩ : Fin 1024).val = (⟨s, hs⟩ : Fin 8).val * 128 + c.val := by
      show 128 * s + c.val = s * 128 + c.val
      omega
    show dite (128 * s + c.val < 1024) _ _ = _
    rw [dif_pos hlt, gatheredFlat_apply feats idx r ⟨s, hs⟩ c ⟨128 * s + c.val, hlt⟩ hj,
      weightsFlat_apply W ⟨s, hs⟩ c q ⟨128 * s + c.val, hlt⟩ hj]
  rw [hflat, ← BlockSum.sum_blocks 128 8 f, Finset.sum_range_succ, Finset.sum_range_succ, Finset.sum_range_succ,
    Finset.sum_range_succ, Finset.sum_range_succ, Finset.sum_range_succ, Finset.sum_range_succ,
    Finset.sum_range_succ, Finset.sum_range_zero,
    hblock 0 (by omega), hblock 1 (by omega), hblock 2 (by omega), hblock 3 (by omega), hblock 4 (by omega),
    hblock 5 (by omega), hblock 6 (by omega), hblock 7 (by omega)]
  -- The reference's side: the zero matrix and the eight products, entry by entry.
  have hz : broadcastInDim SOut ![] bc_S0_Out (constant (F := Ideal) S0 .f32 0x00000000#32) (ix2 r q) = (0 : EReal) := by
    show Ideal.ofBits .f32 0x00000000#32 = 0
    exact Ideal.ofBits_zero_f32
  unfold accumulated
  rw [addf_apply, addf_apply, addf_apply, addf_apply, addf_apply, addf_apply, addf_apply, addf_apply, hz,
    offsetProduct_apply 0 (by omega), offsetProduct_apply 1 (by omega), offsetProduct_apply 2 (by omega),
    offsetProduct_apply 3 (by omega), offsetProduct_apply 4 (by omega), offsetProduct_apply 5 (by omega),
    offsetProduct_apply 6 (by omega), offsetProduct_apply 7 (by omega)]

end Cert.Spec

end
-- ==== Proof.lean ====
/-
  The certificate of a sparse convolution with batch normalisation: a kernel that gathers all eight offsets' rows at
  once, lays them out as one matrix [100000, 1024] and multiplies it by the weights laid out as [1024, 256] in fifty
  blocks of 2000 rows, against a reference that gathers one offset at a time and adds the eight products
  [100000, 128] x [128, 256] onto a zero matrix; both then subtract the column means, scale by the reciprocal square
  root of the column variances plus a constant, multiply by gamma, add beta and rectify.

  At the ideal values a change of float format is the identity and every product is an exact sum, so entry (r, q) of
  either convolution is the sum over the offsets k < 8 and channels c < 128 of fp[row(idx[r, k]), c] * W[k, c, q], where
  fp is the feature table with a zero row appended and row(w) the row a gather reads for the index word w; the kernel's
  sum runs over the 1024 positions 128 k + c at once, the reference's offset by offset, and addition on the extended
  reals is commutative and associative (Bridge.lean; no finiteness is used).  The normalisation is one function of the
  convolution's result, gamma and beta on both sides (Spec.lean's `tail`), so it is never opened.

  The kernel's frames are the generated ones.  The kernel's value is read off the generated frame run: the product
  array from its fifty blocks (KBlocks.lean), the operands and the result from the host lines around the region
  (KHost.lean), joined in KRun.lean.  The reference's run is RRun.lean; its frame is that run with the result dropped.
  The idealization rewrote nothing, so `preserves` is trivial.
-/
import proofs.«104532_j25967372272144_1_alg».proof.Defs
import proofs.«104532_j25967372272144_1_alg».proof.Proof.Gen.Kernel
import proofs.«104532_j25967372272144_1_alg».proof.Proof.Gen.Kernel.Skeleton
import proofs.«104532_j25967372272144_1_alg».proof.Proof.Gen.Kernel.Launch
import proofs.«104532_j25967372272144_1_alg».proof.Proof.Gen.Kernel.Points
import proofs.«104532_j25967372272144_1_alg».proof.Proof.Gen.Kernel.Frame
import proofs.«104532_j25967372272144_1_alg».proof.Proof.Gen.KernelIdeal
import proofs.«104532_j25967372272144_1_alg».proof.Proof.Gen.KernelIdeal.Skeleton
import proofs.«104532_j25967372272144_1_alg».proof.Proof.Gen.KernelIdeal.Launch
import proofs.«104532_j25967372272144_1_alg».proof.Proof.Gen.KernelIdeal.Points
import proofs.«104532_j25967372272144_1_alg».proof.Proof.Gen.KernelIdeal.Frame
import proofs.«104532_j25967372272144_1_alg».proof.Proof.Gen.ReferenceIdeal
import proofs.«104532_j25967372272144_1_alg».proof.Proof.Gen.Pre_finite_inputs
import proofs.«104532_j25967372272144_1_alg».proof.Proof.KRun
import proofs.«104532_j25967372272144_1_alg».proof.Proof.RRun
import proofs.«104532_j25967372272144_1_alg».proof.Proof.Bridge
import Idealize.ShloMosaic.Adequacy
import Idealize.ShloMosaic.Init

noncomputable section

namespace Cert.Proof

open Idealize.ShloMosaic Idealize.SL.Sem

/-- The reference's frame: its run with the result dropped. -/
theorem frame_reference [hReferenceIdeal : Cert.ReferenceIdeal.Facts] [hPre : Cert.Pre_finite_inputs.Facts] :
    Cert.frame_ReferenceIdeal := fun m ρ _ =>
  (θ_run Cert.ReferenceIdeal.defs _ _).mono (fun _ h c => (h c).2) (Cert.ReferenceIdeal.RVal.run (F := Ideal) m ρ)

/-- At the ideal values the kernel's program ends at the normalisation of ONE product of the flattened operands and the
    reference at the normalisation of the eight accumulated products of the same arguments: one array. -/
theorem algebraic [hKernelIdeal : Cert.KernelIdeal.Facts] [hReferenceIdeal : Cert.ReferenceIdeal.Facts]
    [hPre : Cert.Pre_finite_inputs.Facts] : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.RVal.run (F := Ideal) m' ρ')
  rw [(hagree c).1, (hagree c).2.1, (hagree c).2.2.1, (hagree c).2.2.2.1, (hagree c).2.2.2.2,
    Cert.Spec.accumulated_eq_product]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
